-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x900x91 : Shape := ⟨3, ![64, 900, 91]⟩
abbrev S64x900x4 : Shape := ⟨3, ![64, 900, 4]⟩
abbrev S64x300x4 : Shape := ⟨3, ![64, 300, 4]⟩
abbrev S64x300 : Shape := ⟨2, ![64, 300]⟩
abbrev S_ : Shape := ⟨0, ![]⟩

class Facts : Prop where
  bcast_S_S64x900x91 : S_.BroadcastsInDim S64x900x91 (![] : Fin 0 → Fin S64x900x91.rank)
  reducesTo_S64x900x91_S_d0_1_2 : S64x900x91.ReducesTo [0, 1, 2] S_
  h_S_ : 0 < S_.numel
  bcast_S_S64x900x4 : S_.BroadcastsInDim S64x900x4 (![] : Fin 0 → Fin S64x900x4.rank)
  reducesTo_S64x900x4_S_d0_1_2 : S64x900x4.ReducesTo [0, 1, 2] S_
  bcast_S_S64x300x4 : S_.BroadcastsInDim S64x300x4 (![] : Fin 0 → Fin S64x300x4.rank)
  reducesTo_S64x300x4_S_d0_1_2 : S64x300x4.ReducesTo [0, 1, 2] S_
  bcast_S_S64x300 : S_.BroadcastsInDim S64x300 (![] : Fin 0 → Fin S64x300.rank)
  reducesTo_S64x300_S_d0_1 : S64x300.ReducesTo [0, 1] S_

variable [Facts]

def fn_part1 {F : FTy → Type} [FloatOps F] (main_arg3 : IVec S64x300 32) (main_v13 : IVec S_ 1) (main_v15 : IVec S64x300 1) (main_c_5 : IVec S_ 32) : IVec S_ 1 :=
  let main_v16 : IVec S64x300 32 := broadcastInDim S64x300 ![] bcast_S_S64x300 main_c_5
  let main_v17 : IVec S64x300 1 := cmpi .slt main_arg3 main_v16
  let main_v18 : IVec S64x300 1 := andi main_v15 main_v17
  let main_c_6 : IVec S_ 1 := constantI S_ 1 1#1
  let main_v19 : IVec S_ 1 := (fun x v => Host.reduce IntOp.andi x v reducesTo_S64x300_S_d0_1 h_S_) main_v18 main_c_6
  let main_v20 : IVec S_ 1 := andi main_v13 main_v19
  main_v20

def fn {F : FTy → Type} [FloatOps F] (main_arg0 : FVec F S64x900x91 .f32) (main_arg1 : FVec F S64x900x4 .f32) (main_arg2 : FVec F S64x300x4 .f32) (main_arg3 : IVec S64x300 32) : IVec S_ 1 :=
  let main_v0 : FVec F S64x900x91 .f32 := Host.absf main_arg0
  let main_cst : FVec F S_ .f32 := constant S_ .f32 0x7F800000#32
  let main_v1 : FVec F S64x900x91 .f32 := broadcastInDim S64x900x91 ![] bcast_S_S64x900x91 main_cst
  let main_v2 : IVec S64x900x91 1 := cmpf .olt main_v0 main_v1
  let main_c : IVec S_ 1 := constantI S_ 1 1#1
  let main_v3 : IVec S_ 1 := (fun x v => Host.reduce IntOp.andi x v reducesTo_S64x900x91_S_d0_1_2 h_S_) main_v2 main_c
  let main_v4 : FVec F S64x900x4 .f32 := Host.absf main_arg1
  let main_cst_0 : FVec F S_ .f32 := constant S_ .f32 0x7F800000#32
  let main_v5 : FVec F S64x900x4 .f32 := broadcastInDim S64x900x4 ![] bcast_S_S64x900x4 main_cst_0
  let main_v6 : IVec S64x900x4 1 := cmpf .olt main_v4 main_v5
  let main_c_1 : IVec S_ 1 := constantI S_ 1 1#1
  let main_v7 : IVec S_ 1 := (fun x v => Host.reduce IntOp.andi x v reducesTo_S64x900x4_S_d0_1_2 h_S_) main_v6 main_c_1
  let main_v8 : IVec S_ 1 := andi main_v3 main_v7
  let main_v9 : FVec F S64x300x4 .f32 := Host.absf main_arg2
  let main_cst_2 : FVec F S_ .f32 := constant S_ .f32 0x7F800000#32
  let main_v10 : FVec F S64x300x4 .f32 := broadcastInDim S64x300x4 ![] bcast_S_S64x300x4 main_cst_2
  let main_v11 : IVec S64x300x4 1 := cmpf .olt main_v9 main_v10
  let main_c_3 : IVec S_ 1 := constantI S_ 1 1#1
  let main_v12 : IVec S_ 1 := (fun x v => Host.reduce IntOp.andi x v reducesTo_S64x300x4_S_d0_1_2 h_S_) main_v11 main_c_3
  let main_v13 : IVec S_ 1 := andi main_v8 main_v12
  let main_c_4 : IVec S_ 32 := constantI S_ 32 0#32
  let main_v14 : IVec S64x300 32 := broadcastInDim S64x300 ![] bcast_S_S64x300 main_c_4
  let main_v15 : IVec S64x300 1 := cmpi .sge main_arg3 main_v14
  let main_c_5 : IVec S_ 32 := constantI S_ 32 91#32
  fn_part1 (F := F) main_arg3 main_v13 main_v15 main_c_5
-- ==== Kernel.lean ====
abbrev S64x900x91 : Shape := ⟨3, ![64, 900, 91]⟩
abbrev S64x900x4 : Shape := ⟨3, ![64, 900, 4]⟩
abbrev S64x300x4 : Shape := ⟨3, ![64, 300, 4]⟩
abbrev S64x300 : Shape := ⟨2, ![64, 300]⟩
abbrev S64x1x300 : Shape := ⟨3, ![64, 1, 300]⟩
abbrev S64x900x300 : Shape := ⟨3, ![64, 900, 300]⟩
abbrev S1x900x91 : Shape := ⟨3, ![1, 900, 91]⟩
abbrev S1x900x4 : Shape := ⟨3, ![1, 900, 4]⟩
abbrev S1x300x4 : Shape := ⟨3, ![1, 300, 4]⟩
abbrev S1x1x300 : Shape := ⟨3, ![1, 1, 300]⟩
abbrev S1x900x300 : Shape := ⟨3, ![1, 900, 300]⟩
abbrev S900x91 : Shape := ⟨2, ![900, 91]⟩
abbrev S900x4 : Shape := ⟨2, ![900, 4]⟩
abbrev S300x4 : Shape := ⟨2, ![300, 4]⟩
abbrev S300 : Shape := ⟨1, ![300]⟩
abbrev S900 : Shape := ⟨1, ![900]⟩
abbrev S900x1 : Shape := ⟨2, ![900, 1]⟩
abbrev S91x300 : Shape := ⟨2, ![91, 300]⟩
abbrev S1x300 : Shape := ⟨2, ![1, 300]⟩
abbrev S900x300 : Shape := ⟨2, ![900, 300]⟩
abbrev S300x1 : Shape := ⟨2, ![300, 1]⟩

abbrev nBuf : Space → Nat
  | .hbm => 6
  | .vmem => 10
  | .smem => 0
  | _ => 0

abbrev bufTy : (tb : Table) → Fin (tcTables nBuf tb) → BufTy
  | .hbm, ⟨0, _⟩ => ⟨S64x900x91, .f32⟩
  | .hbm, ⟨1, _⟩ => ⟨S64x900x4, .f32⟩
  | .hbm, ⟨2, _⟩ => ⟨S64x300x4, .f32⟩
  | .hbm, ⟨3, _⟩ => ⟨S64x300, .i32⟩
  | .hbm, ⟨4, _⟩ => ⟨S64x1x300, .i32⟩
  | .hbm, ⟨5, _⟩ => ⟨S64x900x300, .f32⟩
  | .local _ .vmem, ⟨0, _⟩ => ⟨S1x900x91, .f32⟩
  | .local _ .vmem, ⟨1, _⟩ => ⟨S1x900x91, .f32⟩
  | .local _ .vmem, ⟨2, _⟩ => ⟨S1x900x4, .f32⟩
  | .local _ .vmem, ⟨3, _⟩ => ⟨S1x900x4, .f32⟩
  | .local _ .vmem, ⟨4, _⟩ => ⟨S1x300x4, .f32⟩
  | .local _ .vmem, ⟨5, _⟩ => ⟨S1x300x4, .f32⟩
  | .local _ .vmem, ⟨6, _⟩ => ⟨S1x1x300, .i32⟩
  | .local _ .vmem, ⟨7, _⟩ => ⟨S1x1x300, .i32⟩
  | .local _ .vmem, ⟨8, _⟩ => ⟨S1x900x300, .f32⟩
  | .local _ .vmem, ⟨9, _⟩ => ⟨S1x900x300, .f32⟩
  | _, _ => ⟨S64x900x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x900x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x900x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x300x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x300 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x900x300 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S64x300_S64x1x300_0_2 : S64x300.BroadcastsInDim S64x1x300 (![0, 2] : Fin 2 → Fin S64x1x300.rank)
  inb_S1x900x91_S1x900x91_0_0_0 : ∀ a, (![0, 0, 0] : Fin 3 → Nat) a + S1x900x91.size a ≤ S1x900x91.size a
  h_S1x900x91 : 0 < S1x900x91.numel
  shapeCasts_S1x900x91_S900x91 : S1x900x91.ShapeCasts S900x91
  inb_S1x900x4_S1x900x4_0_0_0 : ∀ a, (![0, 0, 0] : Fin 3 → Nat) a + S1x900x4.size a ≤ S1x900x4.size a
  h_S1x900x4 : 0 < S1x900x4.numel
  shapeCasts_S1x900x4_S900x4 : S1x900x4.ShapeCasts S900x4
  inb_S1x300x4_S1x300x4_0_0_0 : ∀ a, (![0, 0, 0] : Fin 3 → Nat) a + S1x300x4.size a ≤ S1x300x4.size a
  h_S1x300x4 : 0 < S1x300x4.numel
  shapeCasts_S1x300x4_S300x4 : S1x300x4.ShapeCasts S300x4
  inb_S1x1x300_S1x1x300_0_0_0 : ∀ a, (![0, 0, 0] : Fin 3 → Nat) a + S1x1x300.size a ≤ S1x1x300.size a
  h_S1x1x300 : 0 < S1x1x300.numel
  shapeCasts_S1x1x300_S300 : S1x1x300.ShapeCasts S300
  reduces_S900x91_S900 : S900x91.Reduces [1] S900
  shapeCasts_S900_S900x1 : S900.ShapeCasts S900x1
  broadcasts_S900x1_S900x91 : S900x1.Broadcasts S900x91
  iota_S91x300_d0_w32 : S91x300.Iotas .tc 32 [0]
  shapeCasts_S300_S1x300 : S300.ShapeCasts S1x300
  broadcasts_S1x300_S91x300 : S1x300.Broadcasts S91x300
  natLt_1_32 : 1 < 32
  bitsLt_bf16_f32 : FTy.bits .bf16 < FTy.bits .f32
  slices_S900x4_o0_0_S900x1 : S900x4.Slices ![0, 0] S900x1
  shapeCasts_S900x1_S900 : S900x1.ShapeCasts S900
  slices_S900x4_o0_1_S900x1 : S900x4.Slices ![0, 1] S900x1
  slices_S900x4_o0_2_S900x1 : S900x4.Slices ![0, 2] S900x1
  slices_S900x4_o0_3_S900x1 : S900x4.Slices ![0, 3] S900x1
  slices_S300x4_o0_0_S300x1 : S300x4.Slices ![0, 0] S300x1
  shapeCasts_S300x1_S300 : S300x1.ShapeCasts S300
  slices_S300x4_o0_1_S300x1 : S300x4.Slices ![0, 1] S300x1
  slices_S300x4_o0_2_S300x1 : S300x4.Slices ![0, 2] S300x1
  slices_S300x4_o0_3_S300x1 : S300x4.Slices ![0, 3] S300x1
  broadcasts_S900x1_S900x300 : S900x1.Broadcasts S900x300
  broadcasts_S1x300_S900x300 : S1x300.Broadcasts S900x300
  inb_S1x900x300_S1x900x300_0_0_0 : ∀ a, (![0, 0, 0] : Fin 3 → Nat) a + S1x900x300.size a ≤ S1x900x300.size a
  h_S1x900x300 : 0 < S1x900x300.numel
  shapeCasts_S1x900x300_S900x300 : S1x900x300.ShapeCasts S900x300
  shapeCasts_S900x300_S1x900x300 : S900x300.ShapeCasts S1x900x300
  dot_S900x91_S91x300_S900x300_1_0_0_1_n_n_wf : DotDims.WF S900x91 S91x300 S900x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x900x91.size a ≤ S64x900x91.size a
  hwx0_0 : ∀ i : grid0.Coords, EltTy.bits .f32 = 32 ∨ (Rect.block (s := S64x900x91) S1x900x91.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x900x4.size a ≤ S64x900x4.size a
  hwx0_1 : ∀ i : grid0.Coords, EltTy.bits .f32 = 32 ∨ (Rect.block (s := S64x900x4) S1x900x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x300x4.size a ≤ S64x300x4.size a
  hwx0_2 : ∀ i : grid0.Coords, EltTy.bits .f32 = 32 ∨ (Rect.block (s := S64x300x4) S1x300x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x300.size a ≤ S64x1x300.size a
  hwx0_3 : ∀ i : grid0.Coords, EltTy.bits .i32 = 32 ∨ (Rect.block (s := S64x1x300) S1x1x300.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x900x300.size a ≤ S64x900x300.size a
  hwx0_4 : ∀ i : grid0.Coords, EltTy.bits .f32 = 32 ∨ (Rect.block (s := S64x900x300) S1x900x300.size (cc0_transform_4 i) (hinb0_4 i)).WholeWords (EltTy.packing .f32)

variable [Facts₀]

def dot_S900x91_S91x300_S900x300_1_0_0_1_n_n : DotDims S900x91 S91x300 S900x300 where
  lhsContracting := [1]
  rhsContracting := [0]
  lhsNonContracting := [0]
  rhsNonContracting := [1]
  lhsBatch := []
  rhsBatch := []
  wf := dot_S900x91_S91x300_S900x300_1_0_0_1_n_n_wf

abbrev win0_0 : Pipeline.Window sig grid0 :=
  Pipeline.Window.ofSpec (Memref.whole main_arg0) S1x900x91.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x900x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x300x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x300.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x900x300.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x900x91 : Shape := ⟨3, ![64, 900, 91]⟩
abbrev S64x900x4 : Shape := ⟨3, ![64, 900, 4]⟩
abbrev S64x300x4 : Shape := ⟨3, ![64, 300, 4]⟩
abbrev S64x300 : Shape := ⟨2, ![64, 300]⟩
abbrev S_ : Shape := ⟨0, ![]⟩
abbrev S64x900 : Shape := ⟨2, ![64, 900]⟩
abbrev S64x900x1 : Shape := ⟨3, ![64, 900, 1]⟩
abbrev S64x1x300 : Shape := ⟨3, ![64, 1, 300]⟩
abbrev S64x300x1 : Shape := ⟨3, ![64, 300, 1]⟩
abbrev S1 : Shape := ⟨1, ![1]⟩
abbrev S1x1x1 : Shape := ⟨3, ![1, 1, 1]⟩
abbrev S64x900x300 : Shape := ⟨3, ![64, 900, 300]⟩
abbrev S64x900x1x4 : Shape := ⟨4, ![64, 900, 1, 4]⟩
abbrev S64x1x300x4 : Shape := ⟨4, ![64, 1, 300, 4]⟩
abbrev S64x900x300x4 : Shape := ⟨4, ![64, 900, 300, 4]⟩
abbrev S64x900x2 : Shape := ⟨3, ![64, 900, 2]⟩
abbrev S64x900x1x2 : Shape := ⟨4, ![64, 900, 1, 2]⟩
abbrev S64x300x2 : Shape := ⟨3, ![64, 300, 2]⟩
abbrev S64x1x300x2 : Shape := ⟨4, ![64, 1, 300, 2]⟩
abbrev S64x900x300x2 : Shape := ⟨4, ![64, 900, 300, 2]⟩
abbrev S64x900x300x1 : Shape := ⟨4, ![64, 900, 300, 1]⟩

abbrev nBuf : Space → Nat
  | .hbm => 223
  | .vmem => 0
  | .smem => 0
  | _ => 0

abbrev hbmTy0_0 (i : Nat) : BufTy := match i % 128 with
  | 0 => ⟨S64x900x91, .f32⟩
  | 1 => ⟨S64x900x4, .f32⟩
  | 2 => ⟨S64x300x4, .f32⟩
  | 3 => ⟨S64x300, .i32⟩
  | 4 => ⟨S_, .f32⟩
  | 5 => ⟨S64x900, .f32⟩
  | 6 => ⟨S_, .f32⟩
  | 7 => ⟨S64x900, .f32⟩
  | 8 => ⟨S64x900, .f32⟩
  | 9 => ⟨S64x900x1, .f32⟩
  | 10 => ⟨S64x900x91, .f32⟩
  | 11 => ⟨S64x900x91, .f32⟩
  | 12 => ⟨S64x900x91, .f32⟩
  | 13 => ⟨S_, .f32⟩
  | 14 => ⟨S64x900, .f32⟩
  | 15 => ⟨S64x900x1, .f32⟩
  | 16 => ⟨S64x900x91, .f32⟩
  | 17 => ⟨S64x900x91, .f32⟩
  | 18 => ⟨S64x1x300, .i32⟩
  | 19 => ⟨S_, .i32⟩
  | 20 => ⟨S64x1x300, .i32⟩
  | 21 => ⟨S64x1x300, .i1⟩
  | 22 => ⟨S_, .i32⟩
  | 23 => ⟨S64x1x300, .i32⟩
  | 24 => ⟨S64x1x300, .i32⟩
  | 25 => ⟨S64x1x300, .i32⟩
  | 26 => ⟨S64x300x1, .i32⟩
  | 27 => ⟨S1, .i32⟩
  | 28 => ⟨S_, .i32⟩
  | 29 => ⟨S64x300x1, .i32⟩
  | 30 => ⟨S64x300x1, .i1⟩
  | 31 => ⟨S1x1x1, .i32⟩
  | 32 => ⟨S64x300x1, .i32⟩
  | 33 => ⟨S64x300x1, .i1⟩
  | 34 => ⟨S64x300x1, .i1⟩
  | 35 => ⟨S_, .i1⟩
  | 36 => ⟨S64x300, .i1⟩
  | 37 => ⟨S64x900x300, .f32⟩
  | 38 => ⟨S64x900x300, .i1⟩
  | 39 => ⟨S_, .f32⟩
  | 40 => ⟨S64x900x300, .f32⟩
  | 41 => ⟨S64x900x300, .f32⟩
  | 42 => ⟨S64x900x300, .f32⟩
  | 43 => ⟨S64x900x1x4, .f32⟩
  | 44 => ⟨S64x1x300x4, .f32⟩
  | 45 => ⟨S64x900x300x4, .f32⟩
  | 46 => ⟨S64x900x300x4, .f32⟩
  | 47 => ⟨S64x900x300x4, .f32⟩
  | 48 => ⟨S64x900x300x4, .f32⟩
  | 49 => ⟨S_, .f32⟩
  | 50 => ⟨S64x900x300, .f32⟩
  | 51 => ⟨S64x900x1, .f32⟩
  | 52 => ⟨S64x900, .f32⟩
  | 53 => ⟨S64x900x1, .f32⟩
  | 54 => ⟨S64x900, .f32⟩
  | 55 => ⟨S64x900x1, .f32⟩
  | 56 => ⟨S64x900, .f32⟩
  | 57 => ⟨S64x900x1, .f32⟩
  | 58 => ⟨S64x900, .f32⟩
  | 59 => ⟨S_, .f32⟩
  | 60 => ⟨S64x900, .f32⟩
  | 61 => ⟨S64x900, .f32⟩
  | 62 => ⟨S64x900, .f32⟩
  | 63 => ⟨S_, .f32⟩
  | 64 => ⟨S64x900, .f32⟩
  | 65 => ⟨S64x900, .f32⟩
  | 66 => ⟨S64x900, .f32⟩
  | 67 => ⟨S_, .f32⟩
  | 68 => ⟨S64x900, .f32⟩
  | 69 => ⟨S64x900, .f32⟩
  | 70 => ⟨S64x900, .f32⟩
  | 71 => ⟨S_, .f32⟩
  | 72 => ⟨S64x900, .f32⟩
  | 73 => ⟨S64x900, .f32⟩
  | 74 => ⟨S64x900, .f32⟩
  | 75 => ⟨S64x900x1, .f32⟩
  | 76 => ⟨S64x900x1, .f32⟩
  | 77 => ⟨S64x900x1, .f32⟩
  | 78 => ⟨S64x900x1, .f32⟩
  | 79 => ⟨S64x900x4, .f32⟩
  | 80 => ⟨S64x300x1, .f32⟩
  | 81 => ⟨S64x300, .f32⟩
  | 82 => ⟨S64x300x1, .f32⟩
  | 83 => ⟨S64x300, .f32⟩
  | 84 => ⟨S64x300x1, .f32⟩
  | 85 => ⟨S64x300, .f32⟩
  | 86 => ⟨S64x300x1, .f32⟩
  | 87 => ⟨S64x300, .f32⟩
  | 88 => ⟨S_, .f32⟩
  | 89 => ⟨S64x300, .f32⟩
  | 90 => ⟨S64x300, .f32⟩
  | 91 => ⟨S64x300, .f32⟩
  | 92 => ⟨S_, .f32⟩
  | 93 => ⟨S64x300, .f32⟩
  | 94 => ⟨S64x300, .f32⟩
  | 95 => ⟨S64x300, .f32⟩
  | 96 => ⟨S_, .f32⟩
  | 97 => ⟨S64x300, .f32⟩
  | 98 => ⟨S64x300, .f32⟩
  | 99 => ⟨S64x300, .f32⟩
  | 100 => ⟨S_, .f32⟩
  | 101 => ⟨S64x300, .f32⟩
  | 102 => ⟨S64x300, .f32⟩
  | 103 => ⟨S64x300, .f32⟩
  | 104 => ⟨S64x300x1, .f32⟩
  | 105 => ⟨S64x300x1, .f32⟩
  | 106 => ⟨S64x300x1, .f32⟩
  | 107 => ⟨S64x300x1, .f32⟩
  | 108 => ⟨S64x300x4, .f32⟩
  | 109 => ⟨S64x900x1, .f32⟩
  | 110 => ⟨S64x900, .f32⟩
  | 111 => ⟨S64x900x1, .f32⟩
  | 112 => ⟨S64x900, .f32⟩
  | 113 => ⟨S64x900, .f32⟩
  | 114 => ⟨S_, .i32⟩
  | 115 => ⟨S_, .f32⟩
  | 116 => ⟨S64x900, .f32⟩
  | 117 => ⟨S64x900, .f32⟩
  | 118 => ⟨S64x900x1, .f32⟩
  | 119 => ⟨S64x900, .f32⟩
  | 120 => ⟨S64x900x1, .f32⟩
  | 121 => ⟨S64x900, .f32⟩
  | 122 => ⟨S64x900, .f32⟩
  | 123 => ⟨S_, .i32⟩
  | 124 => ⟨S_, .f32⟩
  | 125 => ⟨S64x900, .f32⟩
  | 126 => ⟨S64x900, .f32⟩
  | 127 => ⟨S64x900, .f32⟩
  | _ => ⟨S64x900x91, .f32⟩

abbrev hbmTy0_1 (i : Nat) : BufTy := match i % 128 with
  | 0 => ⟨S64x300x1, .f32⟩
  | 1 => ⟨S64x300, .f32⟩
  | 2 => ⟨S64x300x1, .f32⟩
  | 3 => ⟨S64x300, .f32⟩
  | 4 => ⟨S64x300, .f32⟩
  | 5 => ⟨S_, .i32⟩
  | 6 => ⟨S_, .f32⟩
  | 7 => ⟨S64x300, .f32⟩
  | 8 => ⟨S64x300, .f32⟩
  | 9 => ⟨S64x300x1, .f32⟩
  | 10 => ⟨S64x300, .f32⟩
  | 11 => ⟨S64x300x1, .f32⟩
  | 12 => ⟨S64x300, .f32⟩
  | 13 => ⟨S64x300, .f32⟩
  | 14 => ⟨S_, .i32⟩
  | 15 => ⟨S_, .f32⟩
  | 16 => ⟨S64x300, .f32⟩
  | 17 => ⟨S64x300, .f32⟩
  | 18 => ⟨S64x300, .f32⟩
  | 19 => ⟨S64x900x2, .f32⟩
  | 20 => ⟨S64x900x1x2, .f32⟩
  | 21 => ⟨S64x300x2, .f32⟩
  | 22 => ⟨S64x1x300x2, .f32⟩
  | 23 => ⟨S64x900x300x2, .f32⟩
  | 24 => ⟨S64x900x300x2, .f32⟩
  | 25 => ⟨S64x900x300x2, .f32⟩
  | 26 => ⟨S64x900x2, .f32⟩
  | 27 => ⟨S64x900x1x2, .f32⟩
  | 28 => ⟨S64x300x2, .f32⟩
  | 29 => ⟨S64x1x300x2, .f32⟩
  | 30 => ⟨S64x900x300x2, .f32⟩
  | 31 => ⟨S64x900x300x2, .f32⟩
  | 32 => ⟨S64x900x300x2, .f32⟩
  | 33 => ⟨S64x900x300x2, .f32⟩
  | 34 => ⟨S_, .i32⟩
  | 35 => ⟨S_, .f32⟩
  | 36 => ⟨S64x900x300x2, .f32⟩
  | 37 => ⟨S64x900x300x2, .f32⟩
  | 38 => ⟨S64x900x300x1, .f32⟩
  | 39 => ⟨S64x900x300, .f32⟩
  | 40 => ⟨S64x900x300x1, .f32⟩
  | 41 => ⟨S64x900x300, .f32⟩
  | 42 => ⟨S64x900x300, .f32⟩
  | 43 => ⟨S64x900x1, .f32⟩
  | 44 => ⟨S64x1x300, .f32⟩
  | 45 => ⟨S64x900x300, .f32⟩
  | 46 => ⟨S64x900x300, .f32⟩
  | 47 => ⟨S64x900x300, .f32⟩
  | 48 => ⟨S64x900x300, .f32⟩
  | 49 => ⟨S_, .f32⟩
  | 50 => ⟨S64x900x300, .f32⟩
  | 51 => ⟨S64x900x300, .f32⟩
  | 52 => ⟨S64x900x300, .f32⟩
  | 53 => ⟨S64x900x2, .f32⟩
  | 54 => ⟨S64x900x1x2, .f32⟩
  | 55 => ⟨S64x300x2, .f32⟩
  | 56 => ⟨S64x1x300x2, .f32⟩
  | 57 => ⟨S64x900x300x2, .f32⟩
  | 58 => ⟨S64x900x300x2, .f32⟩
  | 59 => ⟨S64x900x300x2, .f32⟩
  | 60 => ⟨S64x900x2, .f32⟩
  | 61 => ⟨S64x900x1x2, .f32⟩
  | 62 => ⟨S64x300x2, .f32⟩
  | 63 => ⟨S64x1x300x2, .f32⟩
  | 64 => ⟨S64x900x300x2, .f32⟩
  | 65 => ⟨S64x900x300x2, .f32⟩
  | 66 => ⟨S64x900x300x2, .f32⟩
  | 67 => ⟨S64x900x300x2, .f32⟩
  | 68 => ⟨S_, .i32⟩
  | 69 => ⟨S_, .f32⟩
  | 70 => ⟨S64x900x300x2, .f32⟩
  | 71 => ⟨S64x900x300x2, .f32⟩
  | 72 => ⟨S64x900x300x1, .f32⟩
  | 73 => ⟨S64x900x300, .f32⟩
  | 74 => ⟨S64x900x300x1, .f32⟩
  | 75 => ⟨S64x900x300, .f32⟩
  | 76 => ⟨S64x900x300, .f32⟩
  | 77 => ⟨S64x900x300, .f32⟩
  | 78 => ⟨S_, .f32⟩
  | 79 => ⟨S64x900x300, .f32⟩
  | 80 => ⟨S64x900x300, .f32⟩
  | 81 => ⟨S64x900x300, .f32⟩
  | 82 => ⟨S64x900x300, .f32⟩
  | 83 => ⟨S64x900x300, .f32⟩
  | 84 => ⟨S_, .f32⟩
  | 85 => ⟨S64x900x300, .f32⟩
  | 86 => ⟨S64x900x300, .f32⟩
  | 87 => ⟨S_, .f32⟩
  | 88 => ⟨S64x900x300, .f32⟩
  | 89 => ⟨S64x900x300, .f32⟩
  | 90 => ⟨S64x900x300, .f32⟩
  | 91 => ⟨S_, .f32⟩
  | 92 => ⟨S64x900x300, .f32⟩
  | 93 => ⟨S64x900x300, .f32⟩
  | 94 => ⟨S64x900x300, .f32⟩
  | _ => ⟨S64x900x91, .f32⟩

abbrev hbmTy (i : Nat) : BufTy := match i / 128 with
  | 0 => hbmTy0_0 i
  | 1 => hbmTy0_1 i
  | _ => ⟨S64x900x91, .f32⟩

abbrev bufTy : (tb : Table) → Fin (tcTables nBuf tb) → BufTy
  | .hbm, ⟨i, _⟩ => hbmTy i
  | _, _ => ⟨S64x900x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst_2 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_3 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_4 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_5 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_6 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_7 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_8 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_9 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_10 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_c : Ref sig .tc := ⟨.hbm, 114, rfl⟩
abbrev main_call1_v0 : Ref sig .tc := ⟨.hbm, 115, rfl⟩
abbrev main_call1_v1 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_c_11 : Ref sig .tc := ⟨.hbm, 123, rfl⟩
abbrev main_call2_v0 : Ref sig .tc := ⟨.hbm, 124, rfl⟩
abbrev main_call2_v1 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_c_12 : Ref sig .tc := ⟨.hbm, 133, rfl⟩
abbrev main_call3_v0 : Ref sig .tc := ⟨.hbm, 134, rfl⟩
abbrev main_call3_v1 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_c_13 : Ref sig .tc := ⟨.hbm, 142, rfl⟩
abbrev main_call4_v0 : Ref sig .tc := ⟨.hbm, 143, rfl⟩
abbrev main_call4_v1 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_c_14 : Ref sig .tc := ⟨.hbm, 162, rfl⟩
abbrev main_call5_v0 : Ref sig .tc := ⟨.hbm, 163, rfl⟩
abbrev main_call5_v1 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_cst_15 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_c_16 : Ref sig .tc := ⟨.hbm, 196, rfl⟩
abbrev main_call6_v0 : Ref sig .tc := ⟨.hbm, 197, rfl⟩
abbrev main_call6_v1 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_cst_17 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_cst_18 : Ref sig .tc := ⟨.hbm, 212, rfl⟩
abbrev main_v154 : Ref sig .tc := ⟨.hbm, 213, rfl⟩
abbrev main_v155 : Ref sig .tc := ⟨.hbm, 214, rfl⟩
abbrev main_cst_19 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_cst_20 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩

abbrev nD : Nat := 1
abbrev τ : Topo := Topo.v7x

variable {F : FTy → Type} [FloatOps F]

class Facts₀ : Prop where
  reducesTo_S64x900x91_S64x900_d2 : S64x900x91.ReducesTo [2] S64x900
  h_S_ : 0 < S_.numel
  bcast_S_S64x900 : S_.BroadcastsInDim S64x900 (![] : Fin 0 → Fin S64x900.rank)
  bcast_S64x900_S64x900x1_0_1 : S64x900.BroadcastsInDim S64x900x1 (![0, 1] : Fin 2 → Fin S64x900x1.rank)
  bcast_S64x900x1_S64x900x91_0_1_2 : S64x900x1.BroadcastsInDim S64x900x91 (![0, 1, 2] : Fin 3 → Fin S64x900x91.rank)
  bcast_S64x300_S64x1x300_0_2 : S64x300.BroadcastsInDim S64x1x300 (![0, 2] : Fin 2 → Fin S64x1x300.rank)
  bcast_S_S64x1x300 : S_.BroadcastsInDim S64x1x300 (![] : Fin 0 → Fin S64x1x300.rank)
  shapeCasts_S64x1x300_S64x300x1 : S64x1x300.ShapeCasts S64x300x1
  bcast_S_S64x300x1 : S_.BroadcastsInDim S64x300x1 (![] : Fin 0 → Fin S64x300x1.rank)
  bcast_S1_S1x1x1_2 : S1.BroadcastsInDim S1x1x1 (![2] : Fin 1 → Fin S1x1x1.rank)
  bcast_S1x1x1_S64x300x1_0_1_2 : S1x1x1.BroadcastsInDim S64x300x1 (![0, 1, 2] : Fin 3 → Fin S64x300x1.rank)
  reducesTo_S64x300x1_S64x300_d2 : S64x300x1.ReducesTo [2] S64x300
  bcast_S64x300_S64x900x300_0_2 : S64x300.BroadcastsInDim S64x900x300 (![0, 2] : Fin 2 → Fin S64x900x300.rank)
  bcast_S_S64x900x300 : S_.BroadcastsInDim S64x900x300 (![] : Fin 0 → Fin S64x900x300.rank)
  bcast_S64x900x4_S64x900x1x4_0_1_3 : S64x900x4.BroadcastsInDim S64x900x1x4 (![0, 1, 3] : Fin 3 → Fin S64x900x1x4.rank)
  bcast_S64x300x4_S64x1x300x4_0_2_3 : S64x300x4.BroadcastsInDim S64x1x300x4 (![0, 2, 3] : Fin 3 → Fin S64x1x300x4.rank)
  bcast_S64x900x1x4_S64x900x300x4_0_1_2_3 : S64x900x1x4.BroadcastsInDim S64x900x300x4 (![0, 1, 2, 3] : Fin 4 → Fin S64x900x300x4.rank)
  bcast_S64x1x300x4_S64x900x300x4_0_1_2_3 : S64x1x300x4.BroadcastsInDim S64x900x300x4 (![0, 1, 2, 3] : Fin 4 → Fin S64x900x300x4.rank)
  reducesTo_S64x900x300x4_S64x900x300_d3 : S64x900x300x4.ReducesTo [3] S64x900x300
  slices_S64x900x4_S64x900x1_0_0_0 : S64x900x4.Slices ![0, 0, 0] S64x900x1
  shapeCasts_S64x900x1_S64x900 : S64x900x1.ShapeCasts S64x900
  slices_S64x900x4_S64x900x1_0_0_1 : S64x900x4.Slices ![0, 0, 1] S64x900x1
  slices_S64x900x4_S64x900x1_0_0_2 : S64x900x4.Slices ![0, 0, 2] S64x900x1
  slices_S64x900x4_S64x900x1_0_0_3 : S64x900x4.Slices ![0, 0, 3] S64x900x1
  concatenates_S64x900x1_S64x900x1_S64x900x1_S64x900x1_S64x900x4_d2 : Shape.Concatenates [S64x900x1, S64x900x1, S64x900x1, S64x900x1] S64x900x4 2
  slices_S64x300x4_S64x300x1_0_0_0 : S64x300x4.Slices ![0, 0, 0] S64x300x1
  shapeCasts_S64x300x1_S64x300 : S64x300x1.ShapeCasts S64x300
  slices_S64x300x4_S64x300x1_0_0_1 : S64x300x4.Slices ![0, 0, 1] S64x300x1
  slices_S64x300x4_S64x300x1_0_0_2 : S64x300x4.Slices ![0, 0, 2] S64x300x1
  slices_S64x300x4_S64x300x1_0_0_3 : S64x300x4.Slices ![0, 0, 3] S64x300x1
  bcast_S_S64x300 : S_.BroadcastsInDim S64x300 (![] : Fin 0 → Fin S64x300.rank)
  bcast_S64x300_S64x300x1_0_1 : S64x300.BroadcastsInDim S64x300x1 (![0, 1] : Fin 2 → Fin S64x300x1.rank)
  concatenates_S64x300x1_S64x300x1_S64x300x1_S64x300x1_S64x300x4_d2 : Shape.Concatenates [S64x300x1, S64x300x1, S64x300x1, S64x300x1] S64x300x4 2
  slices_S64x900x4_S64x900x2_0_0_0 : S64x900x4.Slices ![0, 0, 0] S64x900x2
  bcast_S64x900x2_S64x900x1x2_0_1_3 : S64x900x2.BroadcastsInDim S64x900x1x2 (![0, 1, 3] : Fin 3 → Fin S64x900x1x2.rank)
  slices_S64x300x4_S64x300x2_0_0_0 : S64x300x4.Slices ![0, 0, 0] S64x300x2
  bcast_S64x300x2_S64x1x300x2_0_2_3 : S64x300x2.BroadcastsInDim S64x1x300x2 (![0, 2, 3] : Fin 3 → Fin S64x1x300x2.rank)
  bcast_S64x900x1x2_S64x900x300x2_0_1_2_3 : S64x900x1x2.BroadcastsInDim S64x900x300x2 (![0, 1, 2, 3] : Fin 4 → Fin S64x900x300x2.rank)
  bcast_S64x1x300x2_S64x900x300x2_0_1_2_3 : S64x1x300x2.BroadcastsInDim S64x900x300x2 (![0, 1, 2, 3] : Fin 4 → Fin S64x900x300x2.rank)
  slices_S64x900x4_S64x900x2_0_0_2 : S64x900x4.Slices ![0, 0, 2] S64x900x2
  slices_S64x300x4_S64x300x2_0_0_2 : S64x300x4.Slices ![0, 0, 2] S64x300x2
  bcast_S_S64x900x300x2 : S_.BroadcastsInDim S64x900x300x2 (![] : Fin 0 → Fin S64x900x300x2.rank)
  slices_S64x900x300x2_S64x900x300x1_0_0_0_0 : S64x900x300x2.Slices ![0, 0, 0, 0] S64x900x300x1
  shapeCasts_S64x900x300x1_S64x900x300 : S64x900x300x1.ShapeCasts S64x900x300
  slices_S64x900x300x2_S64x900x300x1_0_0_0_1 : S64x900x300x2.Slices ![0, 0, 0, 1] S64x900x300x1
  bcast_S64x900x1_S64x900x300_0_1_2 : S64x900x1.BroadcastsInDim S64x900x300 (![0, 1, 2] : Fin 3 → Fin S64x900x300.rank)
  bcast_S64x1x300_S64x900x300_0_1_2 : S64x1x300.BroadcastsInDim S64x900x300 (![0, 1, 2] : Fin 3 → Fin S64x900x300.rank)
  gather_S64x900x91_S64x300x1_S64x900x300_1_2_0_0_2_2_19001_wf : GatherDims.WF S64x900x91 S64x300x1 S64x900x300 [1] [2] [0] [2] [0] 2 ![1, 900, 1]

variable [Facts₀]

def gather_S64x900x91_S64x300x1_S64x900x300_1_2_0_0_2_2_19001 : GatherDims S64x900x91 S64x300x1 S64x900x300 where
  offsetDims := [1]
  collapsedSliceDims := [2]
  operandBatchingDims := [0]
  startIndicesBatchingDims := [0]
  startIndexMap := [2]
  indexVectorDim := 2
  sliceSizes := ![1, 900, 1]
  wf := gather_S64x900x91_S64x300x1_S64x900x300_1_2_0_0_2_2_19001_wf

class Facts : Prop extends Facts₀ where

variable [Facts]
-- ==== Proof.Spec.lean ====
/-
  The matching cost of one (batch, query, target) triple, as a function of the four argument arrays.

  For batch b, query q and target t the cost is

      1 · classCost + 5 · l1Cost + 2 · (−giou),

  * classCost = −p(b, q, id(b, t)): minus the softmax probability, over the 91 classes of query q's logits, of the
    target's class label. The softmax is exp(x − M) / Σ exp(x − M) with M the row's largest logit.
  * l1Cost = Σ over the four box coordinates of |query box − target box| (boxes as centre x, centre y, width, height).
  * giou = IoU − (hull − union) / (hull + ε) of the two boxes turned into corners (centre ∓ half the extent), every
    extent clipped below at 0: the generalised intersection over union.

  Everything is on the extended reals; the float literals (the weights 1, 5, 2, the factor ½ and ε) stay the words both
  programs print, read at the ideal instance. A label word is read signed and clamped into the class range
  `[0, 90]`: on labels already in that range (the precondition of the certificate) the clamp does nothing.
-/
import Idealize.ShloMosaic.PureOps.Ideal
import Idealize.ShloMosaic.Lib.ValueIdx
import Mathlib.Data.Finset.Fold

noncomputable section

open scoped BigOperators

namespace Cert.Matcher

open Idealize.ShloMosaic Idealize.ShloMosaic.ValueIdx

/-- Class logits: batch × query × class. -/
abbrev Logits := (⟨3, ![64, 900, 91]⟩ : Shape).Idx → EReal
/-- Predicted boxes: batch × query × (cx, cy, w, h). -/
abbrev QBoxes := (⟨3, ![64, 900, 4]⟩ : Shape).Idx → EReal
/-- Target boxes: batch × target × (cx, cy, w, h). -/
abbrev TBoxes := (⟨3, ![64, 300, 4]⟩ : Shape).Idx → EReal
/-- Target class labels: batch × target, 32-bit words. -/
abbrev Labels := (⟨2, ![64, 300]⟩ : Shape).Idx → BitVec 32

/-! ## The literals, as the words both programs carry -/

/-- −∞, the value a row maximum starts from. -/
def negInf : EReal := Ideal.ofBits .f32 0xFF800000#32
/-- The factor ½ that turns an extent into the offset of a corner from the centre. -/
def half : EReal := Ideal.ofBits .f32 0x3F000000#32
/-- The ε added to both denominators of the generalised IoU. -/
def eps : EReal := Ideal.ofBits .f32 0x33D6BF95#32
/-- The weight of the class term (the word of 1.0). -/
def wClass : EReal := Ideal.ofBits .f32 0x3F800000#32
/-- The weight of the L1 box term (the word of 5.0). -/
def wBox : EReal := Ideal.ofBits .f32 0x40A00000#32
/-- The weight of the generalised-IoU term (the word of 2.0). -/
def wGiou : EReal := Ideal.ofBits .f32 0x40000000#32

/-! ## The class term: a softmax probability picked out by the label -/

/-- The largest entry of a row of 91 logits (the fold of `max` from −∞). -/
def rowMax (r : Fin 91 → EReal) : EReal := (Finset.univ : Finset (Fin 91)).fold max negInf r

/-- A row's entry shifted by the row maximum and exponentiated: the softmax numerator. -/
def rowExp (r : Fin 91 → EReal) (c : Fin 91) : EReal := Ideal.exp (r c - rowMax r)

/-- The softmax of a row of 91 logits at class `c`. -/
def rowProb (r : Fin 91 → EReal) (c : Fin 91) : EReal := Ideal.div (rowExp r c) (∑ c' : Fin 91, rowExp r c')

/-- The class a label word names: the word read signed, clamped into `[0, 90]`. -/
def cls (w : BitVec 32) : Fin 91 := ⟨min w.toInt.toNat 90, by omega⟩

/-- Every label is a class index: `0 ≤ label < 91`, read signed. -/
def InRange (ids : Labels) : Prop :=
  ∀ (b : Fin 64) (t : Fin 300), 0 ≤ (ids (ix2 b t)).toInt ∧ (ids (ix2 b t)).toInt < 91

/-- Query `q`'s logits in batch `b`, as a row over the classes. -/
def logitRow (x : Logits) (b : Fin 64) (q : Fin 900) : Fin 91 → EReal := fun c => x (ix3 b q c)

/-- Minus the probability query `q` gives to target `t`'s class. -/
def classCost (x : Logits) (ids : Labels) (b : Fin 64) (q : Fin 900) (t : Fin 300) : EReal :=
  -(rowProb (logitRow x b q) (cls (ids (ix2 b t))))

/-! ## The L1 box term -/

/-- |a| on the extended reals. -/
def eabs (a : EReal) : EReal := max a (-a)

/-- The L1 distance of the two boxes over their four coordinates. -/
def l1Of (bx by' bw bh tx ty tw th : EReal) : EReal :=
  eabs (bx - tx) + eabs (by' - ty) + eabs (bw - tw) + eabs (bh - th)

/-! ## The generalised-IoU term -/

/-- The low corner coordinate of an interval of centre `c` and extent `w`. -/
def lo (c w : EReal) : EReal := c - half * w
/-- The high corner coordinate. -/
def hi (c w : EReal) : EReal := c + half * w
/-- The length of the interval from `a` to `b`, clipped below at 0. -/
def side (a b : EReal) : EReal := max (b - a) 0

/-- The area of a box given as (cx, cy, w, h). -/
def areaOf (cx cy w h : EReal) : EReal := side (lo cx w) (hi cx w) * side (lo cy h) (hi cy h)

/-- The area of the intersection of the two boxes. -/
def interOf (bx by' bw bh tx ty tw th : EReal) : EReal :=
  side (max (lo bx bw) (lo tx tw)) (min (hi bx bw) (hi tx tw))
    * side (max (lo by' bh) (lo ty th)) (min (hi by' bh) (hi ty th))

/-- The area of the union: the two areas minus the intersection. -/
def unionOf (bx by' bw bh tx ty tw th : EReal) : EReal :=
  areaOf bx by' bw bh + areaOf tx ty tw th - interOf bx by' bw bh tx ty tw th

/-- The area of the smallest box enclosing both. -/
def hullOf (bx by' bw bh tx ty tw th : EReal) : EReal :=
  side (min (lo bx bw) (lo tx tw)) (max (hi bx bw) (hi tx tw))
    * side (min (lo by' bh) (lo ty th)) (max (hi by' bh) (hi ty th))

/-- The generalised IoU: IoU minus the share of the hull that the union leaves empty. -/
def giouOf (bx by' bw bh tx ty tw th : EReal) : EReal :=
  Ideal.div (interOf bx by' bw bh tx ty tw th) (unionOf bx by' bw bh tx ty tw th + eps)
    - Ideal.div (hullOf bx by' bw bh tx ty tw th - unionOf bx by' bw bh tx ty tw th)
        (hullOf bx by' bw bh tx ty tw th + eps)

/-- The L1 term of query `q` against target `t` in batch `b`. -/
def l1Cost (B : QBoxes) (T : TBoxes) (b : Fin 64) (q : Fin 900) (t : Fin 300) : EReal :=
  l1Of (B (ix3 b q 0)) (B (ix3 b q 1)) (B (ix3 b q 2)) (B (ix3 b q 3))
    (T (ix3 b t 0)) (T (ix3 b t 1)) (T (ix3 b t 2)) (T (ix3 b t 3))

/-- The generalised IoU of query `q`'s box and target `t`'s box in batch `b`. -/
def giouAt (B : QBoxes) (T : TBoxes) (b : Fin 64) (q : Fin 900) (t : Fin 300) : EReal :=
  giouOf (B (ix3 b q 0)) (B (ix3 b q 1)) (B (ix3 b q 2)) (B (ix3 b q 3))
    (T (ix3 b t 0)) (T (ix3 b t 1)) (T (ix3 b t 2)) (T (ix3 b t 3))

/-! ## The cost matrix -/

/-- The three terms weighted and summed, from their values. -/
def combine (cc cb g : EReal) : EReal := wClass * cc + wBox * cb + wGiou * (-g)

/-- The whole result: entry (b, q, t) of the cost tensor. -/
def cost (x : Logits) (B : QBoxes) (T : TBoxes) (ids : Labels) : (⟨3, ![64, 900, 300]⟩ : Shape).Idx → EReal :=
  fun i => combine (classCost x ids (i 0) (i 1) (i 2)) (l1Cost B T (i 0) (i 1) (i 2)) (giouAt B T (i 0) (i 1) (i 2))

/-! ## Two facts about the pieces -/

/-- A row maximum is at least −∞'s word, so taking the maximum with that word again changes nothing. -/
theorem max_negInf_rowMax (r : Fin 91 → EReal) : max negInf (rowMax r) = rowMax r :=
  max_eq_right ((Finset.le_fold_max _).mpr (Or.inl le_rfl))

/-- A sum against the indicator of one class picks that class's entry out. -/
theorem sum_mul_indicator (p : Fin 91 → EReal) (k : Fin 91) :
    ∑ c : Fin 91, p c * (if c = k then (1 : EReal) else 0) = p k := by
  rw [Finset.sum_eq_single k]
  · rw [if_pos rfl, mul_one]
  · intro c _ hc; rw [if_neg hc, mul_zero]
  · intro h; exact absurd (Finset.mem_univ k) h

/-- On a label in the class range the clamp is the word's own value. -/
theorem cls_val {w : BitVec 32} (h0 : 0 ≤ w.toInt) (h1 : w.toInt < 91) : ((cls w).val : ℤ) = w.toInt := by
  unfold cls
  show ((min w.toInt.toNat 90 : ℕ) : ℤ) = w.toInt
  omega

end Cert.Matcher

end
-- ==== Proof.PreDecode.lean ====
/-
  The precondition read back at the class labels.

  The precondition's last conjunct says that every label word, read signed, is at least 0 and below 91: a
  conjunction over all (batch, target) pairs of the two comparisons against the broadcast constants 0 and 91.
  The whole precondition being the word 1 makes that conjunct 1, so each element of the conjunction is 1, and each
  comparison word being 1 is the inequality of the signed readings.
-/
import proofs.«430452_j34591666602013_1_alg».proof.Pre_finite_inputs
import proofs.«430452_j34591666602013_1_alg».proof.Proof.Gen.Pre_finite_inputs
import proofs.«430452_j34591666602013_1_alg».proof.Proof.Spec
import Idealize.ShloMosaic.Lib.ReduceAll

noncomputable section

namespace Cert.Matcher

open Idealize.ShloMosaic Idealize.ShloMosaic.ValueIdx

/-- The scalar shape has one index. -/
instance subsingleton_scalar_idx : Subsingleton Cert.Pre_finite_inputs.S_.Idx :=
  ⟨fun _ _ => funext fun d => d.elim0⟩

/-- Under the precondition every label is a class index: 0 ≤ label < 91, read signed. -/
theorem inRange_of_pre (a0 : FVec Ideal Cert.Pre_finite_inputs.S64x900x91 .f32)
    (a1 : FVec Ideal Cert.Pre_finite_inputs.S64x900x4 .f32) (a2 : FVec Ideal Cert.Pre_finite_inputs.S64x300x4 .f32)
    (a3 : IVec Cert.Pre_finite_inputs.S64x300 32)
    (h : Cert.Pre_finite_inputs.fn (F := Ideal) a0 a1 a2 a3 = fun _ => 1#1) : InRange a3 := by
  intro b t
  -- the whole conjunction at the one index of the scalar result
  have e := congrFun h ix0
  dsimp only [Cert.Pre_finite_inputs.fn, Cert.Pre_finite_inputs.fn_part1] at e
  -- its last conjunct: the conjunction over all labels
  obtain ⟨-, e19⟩ := IntOp.andi_eq_one.1 e
  -- hence the element at (b, t)
  have e18 := Host.reduce_andi_all _ _ _ _ _ e19 (ix2 b t)
  -- the two comparisons at (b, t), against the constants 0 and 91
  obtain ⟨hge, hlt⟩ := IntOp.andi_eq_one.1 e18
  have hge' : (0#32 : BitVec 32).toInt ≤ (a3 (ix2 b t)).toInt := IntOp.cmpi_sge.1 hge
  have hlt' : (a3 (ix2 b t)).toInt < (91#32 : BitVec 32).toInt := IntOp.cmpi_slt.1 hlt
  have z : (0#32 : BitVec 32).toInt = 0 := by decide
  have n : (91#32 : BitVec 32).toInt = 91 := by decide
  rw [z] at hge'
  rw [n] at hlt'
  exact ⟨hge', hlt'⟩

end Cert.Matcher

end
-- ==== Proof.KernelBlocks.lean ====
/-
  The kernel's windows, read at coordinates.

  The grid has one point per batch: at point `t` every window's block is batch `t` of its array, whole on the other
  axes. So an element of a loaded block is the array's element of the same coordinates in batch `t`, and the block the
  point writes back covers batch `t` of the result. The label window's array is the host's relayout of the labels
  `[64, 300]` as `[64, 1, 300]`: its element `(b, 0, t)` is label `(b, t)`.
-/
import proofs.«430452_j34591666602013_1_alg».proof.Proof.Gen.KernelIdeal.Frame
import proofs.«430452_j34591666602013_1_alg».proof.Proof.Spec
import Idealize.ShloMosaic.Lib.Pipeline.Value
import Idealize.ShloMosaic.Lib.StableHlo.Run

noncomputable section

namespace Cert.Matcher.KBlocks

open Cert.KernelIdeal Cert.KernelIdeal.Gen Idealize.ShloMosaic Idealize.ShloMosaic.TcCoe Idealize.SL.Sem
open Idealize.ShloMosaic.ValueIdx Cert.Matcher

variable (m : (ℓ : Loc nD τ sig) → Buf (Elt Ideal) ℓ)

/-- The batch a grid point works on. -/
abbrev batchOf (t : Fin cfg0.N) : Fin 64 := ⟨t.val, t.isLt⟩

/-- Every window's block index at point `t` is `(t, 0, 0)`: decided over the 64 points. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The logits block of point `t`, at its literal type. -/
abbrev xblk (c : Dev nD) (t : Fin cfg0.N) : Vec Ideal S1x900x91 .f32 := iblk m c 0 t
/-- The query-box block of point `t`. -/
abbrev bblk (c : Dev nD) (t : Fin cfg0.N) : Vec Ideal S1x900x4 .f32 := iblk m c 1 t
/-- The target-box block of point `t`. -/
abbrev tblk (c : Dev nD) (t : Fin cfg0.N) : Vec Ideal S1x300x4 .f32 := iblk m c 2 t
/-- The label block of point `t`. -/
abbrev lblk (c : Dev nD) (t : Fin cfg0.N) : Vec Ideal S1x1x300 .i32 := iblk m c 3 t

/-- The logits block at `(0, q, k)` is the logits array at `(t, q, k)`. -/
theorem xblk_apply (c : Dev nD) (t : Fin cfg0.N) (q : Fin 900) (k : Fin 91) :
    xblk m c t (ix3 (0 : Fin 1) q k) = V m c main_arg0 (ix3 (batchOf t) q k) := by
  obtain ⟨⟨e0, e1, e2⟩, -⟩ := idx_facts t
  show V m c main_arg0 (((cfg0.win 0).blk t).view.emb (ix3 (0 : Fin 1) q k)) = V m c main_arg0 (ix3 (batchOf t) q k)
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 900 + 1 * q.val = q.val; omega
  | ⟨2, _⟩ => show win0_0.index t (2 : Fin 3) * 91 + 1 * k.val = k.val; omega

/-- The query-box block at `(0, q, k)` is the box array at `(t, q, k)`. -/
theorem bblk_apply (c : Dev nD) (t : Fin cfg0.N) (q : Fin 900) (k : Fin 4) :
    bblk m c t (ix3 (0 : Fin 1) q k) = V m c main_arg1 (ix3 (batchOf t) q k) := by
  obtain ⟨-, ⟨e0, e1, e2⟩, -⟩ := idx_facts t
  show V m c main_arg1 (((cfg0.win 1).blk t).view.emb (ix3 (0 : Fin 1) q k)) = V m c main_arg1 (ix3 (batchOf t) q k)
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 900 + 1 * q.val = q.val; omega
  | ⟨2, _⟩ => show win0_1.index t (2 : Fin 3) * 4 + 1 * k.val = k.val; omega

/-- The target-box block at `(0, j, k)` is the target array at `(t, j, k)`. -/
theorem tblk_apply (c : Dev nD) (t : Fin cfg0.N) (j : Fin 300) (k : Fin 4) :
    tblk m c t (ix3 (0 : Fin 1) j k) = V m c main_arg2 (ix3 (batchOf t) j k) := by
  obtain ⟨-, -, ⟨e0, e1, e2⟩, -⟩ := idx_facts t
  show V m c main_arg2 (((cfg0.win 2).blk t).view.emb (ix3 (0 : Fin 1) j k)) = V m c main_arg2 (ix3 (batchOf t) j k)
  refine congrArg (V m c main_arg2) (funext fun a => Fin.ext ?_)
  match a with
  | ⟨0, _⟩ => show win0_2.index t (0 : Fin 3) * 1 + 1 * 0 = t.val; omega
  | ⟨1, _⟩ => show win0_2.index t (1 : Fin 3) * 300 + 1 * j.val = j.val; omega
  | ⟨2, _⟩ => show win0_2.index t (2 : Fin 3) * 4 + 1 * k.val = k.val; omega

/-- The label window's array: the labels laid out with a unit middle axis. -/
theorem V_labels (c : Dev nD) :
    (V m c main_v0 : S64x1x300.Idx → BitVec 32)
      = broadcastInDim S64x1x300 ![0, 2] bcast_S64x300_S64x1x300_0_2 (m ((c : Thread nD τ).loc main_arg3)) := by
  dsimp only [V, hostOps0]
  after_results

/-- The label block at `(0, 0, j)` is label `(t, j)`. -/
theorem lblk_apply (c : Dev nD) (t : Fin cfg0.N) (j : Fin 300) :
    lblk m c t (ix3 (0 : Fin 1) (0 : Fin 1) j) = m ((c : Thread nD τ).loc main_arg3) (ix2 (batchOf t) j) := by
  obtain ⟨-, -, -, ⟨e0, e1, e2⟩, -⟩ := idx_facts t
  have hb : lblk m c t (ix3 (0 : Fin 1) (0 : Fin 1) j) = V m c main_v0 (ix3 (batchOf t) (0 : Fin 1) j) := by
    show V m c main_v0 (((cfg0.win 3).blk t).view.emb (ix3 (0 : Fin 1) (0 : Fin 1) j)) = V m c main_v0 (ix3 (batchOf t) (0 : Fin 1) j)
    refine congrArg (V m c main_v0) (funext fun a => Fin.ext ?_)
    match a with
    | ⟨0, _⟩ => show win0_3.index t (0 : Fin 3) * 1 + 1 * 0 = t.val; omega
    | ⟨1, _⟩ => show win0_3.index t (1 : Fin 3) * 1 + 1 * 0 = 0; omega
    | ⟨2, _⟩ => show win0_3.index t (2 : Fin 3) * 300 + 1 * j.val = j.val; omega
  rw [hb]
  show (V m c main_v0 : S64x1x300.Idx → BitVec 32) (ix3 (batchOf t) (0 : Fin 1) j) = _
  rw [V_labels]
  exact broadcastInDim_apply _ bcast_S64x300_S64x1x300_0_2 _ _ (ix2 (batchOf t) j)
    (fun a => by match a with | ⟨0, _⟩ => rfl | ⟨1, _⟩ => rfl)

end Cert.Matcher.KBlocks

end
-- ==== Proof.KernelClass.lean ====
/-
  The class term of the matching cost as the kernel computes it, read at one (query, target) pair.

  From a block of logits x : [900, 91] the kernel takes each row's softmax p(q, c) = exp(x(q, c) − M(q)) / Σ_c' exp(x(q, c') − M(q)),
  M(q) the row's largest logit; from the block of 300 label words it builds the one-hot matrix e(c, t) = 1 where the
  word of class index c is target t's label word, else 0; and it returns 0 − Σ_c p(q, c) · e(c, t). On a label in the
  class range [0, 91) the word of c is the label word exactly when c is the label's class, so the sum picks p(q, label)
  out: the value is minus the softmax probability query q gives target t's class.
-/
import proofs.«430452_j34591666602013_1_alg».proof.Proof.Gen.KernelIdeal.Skeleton
import proofs.«430452_j34591666602013_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open scoped BigOperators

namespace Cert.Matcher

open Cert.KernelIdeal Cert.KernelIdeal.Gen Idealize.ShloMosaic Idealize.ShloMosaic.ValueIdx

variable {α : Type}

/-! ## Layout: a vector as a column, a column laid along the rows, the label block as a vector -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-! ## The two lane reductions of a row -/

/-- The reduced index with coordinate `k` put back on axis 1 is `(q, k)`. -/
theorem lift_row (h : S900x91.Reduces [1] S900) (q : Fin 900) (k : Fin 91) :
    h.lift (ix1 q) k = ix2 q k := by
  funext a
  match a with
  | ⟨0, _⟩ => rfl
  | ⟨1, _⟩ => rfl

/-- The row maximum the kernel takes: the fold of `max` from −∞ over the row. -/
theorem rowmax_apply (v : FVec Ideal S900x91 .f32) (h : S900x91.Reduces [1] S900) (hφ : FKind.Formats .f32)
    (hacc : (0xFF800000#32 : BitVec 32) = FKind.maximumf.neutral .f32 hφ) (q : Fin 900) :
    multiReduction (F := Ideal) .maximumf [1] S900 v 0xFF800000#32 h hφ hacc (ix1 q) = rowMax (fun c => v (ix2 q c)) := by
  rw [Ideal.multiReduction_maximumf_single]
  exact congrArg (fun f : Fin 91 → EReal => (Finset.univ : Finset (Fin 91)).fold max negInf f)
    (funext fun k => congrArg v (lift_row h q k))

/-- The row sum the kernel takes. -/
theorem rowsum_apply (v : FVec Ideal S900x91 .f32) (h : S900x91.Reduces [1] S900) (hφ : FKind.Formats .f32)
    (hacc : (0x00000000#32 : BitVec 32) = FKind.add.neutral .f32 hφ) (q : Fin 900) :
    multiReduction (F := Ideal) .add [1] S900 v 0x00000000#32 h hφ hacc (ix1 q) = ∑ c : Fin 91, v (ix2 q c) := by
  rw [Ideal.multiReduction_add_single]
  exact Finset.sum_congr rfl fun k _ => congrArg v (lift_row h q k)

/-! ## The softmax of a row -/

/-- The row maximum laid back along the row: at `(q, c)` it is row `q`'s maximum. -/
theorem rowmax_bcast_apply (v : FVec Ideal S900x91 .f32) (h : S900x91.Reduces [1] S900) (hφ : FKind.Formats .f32)
    (hacc : (0xFF800000#32 : BitVec 32) = FKind.maximumf.neutral .f32 hφ) (hc : S900.ShapeCasts S900x1)
    (hb : S900x1.Broadcasts S900x91) (q : Fin 900) (c : Fin 91) :
    broadcastTo S900x91 (shapeCast S900x1 (multiReduction (F := Ideal) .maximumf [1] S900 v 0xFF800000#32 h hφ hacc) hc) hb (ix2 q c)
      = rowMax (fun c => v (ix2 q c)) :=
  (broadcastTo_a1_ab_apply _ hb q c).trans ((shapeCast_a_a1_apply _ hc q 0).trans (rowmax_apply v h hφ hacc q))

/-- The row sum laid back along the row: at `(q, c)` it is row `q`'s sum. -/
theorem rowsum_bcast_apply (v : FVec Ideal S900x91 .f32) (h : S900x91.Reduces [1] S900) (hφ : FKind.Formats .f32)
    (hacc : (0x00000000#32 : BitVec 32) = FKind.add.neutral .f32 hφ) (hc : S900.ShapeCasts S900x1)
    (hb : S900x1.Broadcasts S900x91) (q : Fin 900) (c : Fin 91) :
    broadcastTo S900x91 (shapeCast S900x1 (multiReduction (F := Ideal) .add [1] S900 v 0x00000000#32 h hφ hacc) hc) hb (ix2 q c)
      = ∑ c' : Fin 91, v (ix2 q c') :=
  (broadcastTo_a1_ab_apply _ hb q c).trans ((shapeCast_a_a1_apply _ hc q 0).trans (rowsum_apply v h hφ hacc q))

/-- The shifted, exponentiated logits at `(q, c)`: the softmax numerator of row `q` at class `c`. -/
theorem rowexp_apply (v : FVec Ideal S900x91 .f32) (h : S900x91.Reduces [1] S900) (hφ : FKind.Formats .f32)
    (hacc : (0xFF800000#32 : BitVec 32) = FKind.maximumf.neutral .f32 hφ) (hc : S900.ShapeCasts S900x1)
    (hb : S900x1.Broadcasts S900x91) (q : Fin 900) (c : Fin 91) :
    exp (subf v (broadcastTo S900x91 (shapeCast S900x1 (multiReduction (F := Ideal) .maximumf [1] S900 v 0xFF800000#32 h hφ hacc) hc) hb)) (ix2 q c)
      = rowExp (fun c => v (ix2 q c)) c := by
  show Ideal.exp (v (ix2 q c) - broadcastTo S900x91 (shapeCast S900x1 (multiReduction (F := Ideal) .maximumf [1] S900 v 0xFF800000#32 h hφ hacc) hc) hb (ix2 q c)) = _
  rw [rowmax_bcast_apply]
  rfl

/-- The kernel's softmax at `(q, c)`: the probability row `q` gives class `c`. -/
theorem softmax_apply (v : FVec Ideal S900x91 .f32) (h : S900x91.Reduces [1] S900) (hφ : FKind.Formats .f32)
    (hacc : (0xFF800000#32 : BitVec 32) = FKind.maximumf.neutral .f32 hφ)
    (hacc' : (0x00000000#32 : BitVec 32) = FKind.add.neutral .f32 hφ) (hc : S900.ShapeCasts S900x1)
    (hb : S900x1.Broadcasts S900x91) (q : Fin 900) (c : Fin 91) :
    divf (exp (subf v (broadcastTo S900x91 (shapeCast S900x1 (multiReduction (F := Ideal) .maximumf [1] S900 v 0xFF800000#32 h hφ hacc) hc) hb)))
        (broadcastTo S900x91 (shapeCast S900x1 (multiReduction (F := Ideal) .add [1] S900
          (exp (subf v (broadcastTo S900x91 (shapeCast S900x1 (multiReduction (F := Ideal) .maximumf [1] S900 v 0xFF800000#32 h hφ hacc) hc) hb)))
          0x00000000#32 h hφ hacc') hc) hb) (ix2 q c)
      = rowProb (fun c => v (ix2 q c)) c := by
  rw [divf_apply, rowsum_bcast_apply, rowexp_apply]
  unfold rowProb
  exact congrArg (Ideal.div _) (Finset.sum_congr rfl fun c' _ => rowexp_apply v h hφ hacc hc hb q c')

/-! ## The one-hot matrix of the labels -/

/-- The label block laid over the class axis: at `(c, t)` it is target `t`'s label word. -/
theorem label_apply (v : Vec Ideal S1x1x300 .i32) (h1 : S1x1x300.ShapeCasts S300) (h2 : S300.ShapeCasts S1x300)
    (h3 : S1x300.Broadcasts S91x300) (c : Fin 91) (t : Fin 300) :
    broadcastTo S91x300 (shapeCast S1x300 (shapeCast S300 v h1) h2) h3 (ix2 c t) = v (ix3 (0 : Fin 1) (0 : Fin 1) t) :=
  (broadcastTo_1b_ab_apply _ h3 c t).trans ((shapeCast_a_1a_apply _ h2 0 t).trans (shapeCast_11a_a_apply v h1 t))

/-- On a label in the class range, the word of class index `c` is the label word exactly when `c` is the label's class. -/
theorem ofNat_eq_iff_cls {w : BitVec 32} (h0 : 0 ≤ w.toInt) (h1 : w.toInt < 91) (c : Fin 91) :
    BitVec.ofNat 32 c.val = w ↔ c = cls w := by
  have hc : (BitVec.ofNat 32 c.val).toInt = (c.val : ℤ) :=
    StableHlo.Predicate.toInt_ofNat_small c.val (by have := c.isLt; omega)
  have hv := cls_val h0 h1
  constructor
  · intro h
    apply Fin.ext
    have e : ((cls w).val : ℤ) = (c.val : ℤ) := by rw [hv, ← h, hc]
    exact_mod_cast e.symm
  · intro h
    apply BitVec.eq_of_toInt_eq
    rw [hc, h, hv]

/-- A condition bit widened to a word and converted signed is 1 where the bit is set, else 0. -/
theorem sitofp_setWidth_bit (b : BitVec 1) :
    (FloatOps.sitofp (F := Ideal) .f32 (b.setWidth 32) : EReal) = if b = 1#1 then (1 : EReal) else 0 := by
  show ((((b.setWidth 32).toInt : ℤ) : ℝ) : EReal) = _
  rcases BitVec.eq_zero_or_eq_one b with rfl | rfl
  · rw [if_neg (by decide)]
    have : ((0#1 : BitVec 1).setWidth 32).toInt = 0 := by decide
    rw [this]; simp
  · rw [if_pos rfl]
    have : ((1#1 : BitVec 1).setWidth 32).toInt = 1 := by decide
    rw [this]; simp

/-- The one-hot matrix at `(c, t)`: 1 where `c` is target `t`'s class, else 0. -/
theorem onehot_apply (v : Vec Ideal S1x1x300 .i32) (hi : S91x300.Iotas .tc 32 [0]) (h1 : S1x1x300.ShapeCasts S300)
    (h2 : S300.ShapeCasts S1x300) (h3 : S1x300.Broadcasts S91x300) (hw : 1 < 32) (c : Fin 91) (t : Fin 300)
    (hl0 : 0 ≤ (v (ix3 (0 : Fin 1) (0 : Fin 1) t)).toInt) (hl1 : (v (ix3 (0 : Fin 1) (0 : Fin 1) t)).toInt < 91) :
    (sitofp .f32 (extui 32 (cmpi .eq (iota .tc S91x300 32 [0] hi)
        (broadcastTo S91x300 (shapeCast S1x300 (shapeCast S300 v h1) h2) h3)) hw) : FVec Ideal S91x300 .f32) (ix2 c t)
      = if c = cls (v (ix3 (0 : Fin 1) (0 : Fin 1) t)) then (1 : EReal) else 0 := by
  show (FloatOps.sitofp (F := Ideal) .f32 ((IntOp.cmpi .eq (iota .tc S91x300 32 [0] hi (ix2 c t))
        (broadcastTo S91x300 (shapeCast S1x300 (shapeCast S300 v h1) h2) h3 (ix2 c t))).setWidth 32) : EReal) = _
  rw [sitofp_setWidth_bit, iota_single_apply, label_apply]
  show (if IntOp.cmpi .eq (BitVec.ofNat 32 c.val) (v (ix3 (0 : Fin 1) (0 : Fin 1) t)) = 1#1 then (1 : EReal) else 0) = _
  by_cases hc : c = cls (v (ix3 (0 : Fin 1) (0 : Fin 1) t))
  · rw [if_pos hc, if_pos (StableHlo.Predicate.cmpi_eq_iff.mpr ((ofNat_eq_iff_cls hl0 hl1 c).mpr hc))]
  · rw [if_neg hc, if_neg fun h => hc ((ofNat_eq_iff_cls hl0 hl1 c).mp (StableHlo.Predicate.cmpi_eq_iff.mp h))]

/-! ## The product over the class axis -/

/-- The left operand's index of the class product, on its query axis: the output's query coordinate. -/
theorem dot_lhs0 (j : S900x300.Idx) (k : dot_S900x91_S91x300_S900x300_1_0_0_1_n_n.contr.Idx) :
    (dot_S900x91_S91x300_S900x300_1_0_0_1_n_n.lhsIdx j k 0).val = (j 0).val := by
  have key : ∀ (p q : Nat) (hp : p < S900x300.rank) (hq : q < S900x300.rank), p = q → (j ⟨p, hp⟩).val = (j ⟨q, hq⟩).val :=
    fun p q hp hq h => by subst h; rfl
  unfold DotDims.lhsIdx
  simp [dot_S900x91_S91x300_S900x300_1_0_0_1_n_n]
  exact key _ _ _ _ (by decide)

/-- On its class axis: the contraction coordinate. -/
theorem dot_lhs1 (j : S900x300.Idx) (k : dot_S900x91_S91x300_S900x300_1_0_0_1_n_n.contr.Idx) :
    (dot_S900x91_S91x300_S900x300_1_0_0_1_n_n.lhsIdx j k 1).val = (k ⟨0, by decide⟩).val :=
  dot_S900x91_S91x300_S900x300_1_0_0_1_n_n.lhsIdx_val_of_single rfl j k

/-- The right operand's index on its class axis: the contraction coordinate. -/
theorem dot_rhs0 (j : S900x300.Idx) (k : dot_S900x91_S91x300_S900x300_1_0_0_1_n_n.contr.Idx) :
    (dot_S900x91_S91x300_S900x300_1_0_0_1_n_n.rhsIdx j k 0).val = (k ⟨0, by decide⟩).val :=
  dot_S900x91_S91x300_S900x300_1_0_0_1_n_n.rhsIdx_val_of_single rfl j k

/-- On its target axis: the output's target coordinate. -/
theorem dot_rhs1 (j : S900x300.Idx) (k : dot_S900x91_S91x300_S900x300_1_0_0_1_n_n.contr.Idx) :
    (dot_S900x91_S91x300_S900x300_1_0_0_1_n_n.rhsIdx j k 1).val = (j 1).val := by
  have key : ∀ (p q : Nat) (hp : p < S900x300.rank) (hq : q < S900x300.rank), p = q → (j ⟨p, hp⟩).val = (j ⟨q, hq⟩).val :=
    fun p q hp hq h => by subst h; rfl
  unfold DotDims.rhsIdx
  simp [dot_S900x91_S91x300_S900x300_1_0_0_1_n_n]
  exact key _ _ _ _ (by decide)

/-- The class product into the zero accumulator, at `(q, t)`: the sum over the 91 classes of the operands' products. -/
theorem contraction_apply (A : FVec Ideal S900x91 .bf16) (B : FVec Ideal S91x300 .bf16) (q : Fin 900) (t : Fin 300) :
    matmul (F := Ideal) dot_S900x91_S91x300_S900x300_1_0_0_1_n_n none A B (constant S900x300 .f32 0x00000000#32) (ix2 q t)
      = ∑ c : Fin 91, A (ix2 q c) * B (ix2 c t) := by
  simp only [matmul]
  rw [Ideal.matmul_constant_zero_apply,
    ← Equiv.sum_comp (contrEquiv1 dot_S900x91_S91x300_S900x300_1_0_0_1_n_n 91 rfl rfl).symm]
  refine Finset.sum_congr rfl fun c _ => ?_
  have hk := contrEquiv1_symm_val dot_S900x91_S91x300_S900x300_1_0_0_1_n_n 91 rfl rfl c
  have hl : dot_S900x91_S91x300_S900x300_1_0_0_1_n_n.lhsIdx (ix2 q t)
      ((contrEquiv1 dot_S900x91_S91x300_S900x300_1_0_0_1_n_n 91 rfl rfl).symm c) = ix2 q c := by
    funext a
    refine Fin.ext ?_
    match a with
    | ⟨0, _⟩ => exact dot_lhs0 _ _
    | ⟨1, _⟩ => exact (dot_lhs1 _ _).trans hk
  have hr : dot_S900x91_S91x300_S900x300_1_0_0_1_n_n.rhsIdx (ix2 q t)
      ((contrEquiv1 dot_S900x91_S91x300_S900x300_1_0_0_1_n_n 91 rfl rfl).symm c) = ix2 c t := by
    funext a
    refine Fin.ext ?_
    match a with
    | ⟨0, _⟩ => exact (dot_rhs0 _ _).trans hk
    | ⟨1, _⟩ => exact dot_rhs1 _ _
  rw [hl, hr]

/-! ## The class cost -/

/-- THE CLASS COST THE KERNEL COMPUTES, at query `q` and target `t`: minus the softmax probability row `q` gives the
    target's class. The sum over the 91 classes of the probability times the one-hot entry picks the label's class out. -/
theorem k0_pay4_apply (P0 : Vec Ideal S1x900x91 .f32) (P1 : Vec Ideal S1x1x300 .i32) (q : Fin 900) (t : Fin 300)
    (h0 : 0 ≤ (P1 (ix3 (0 : Fin 1) (0 : Fin 1) t)).toInt) (h1 : (P1 (ix3 (0 : Fin 1) (0 : Fin 1) t)).toInt < 91) :
    k0_pay4 (F := Ideal) P0 P1 (ix2 q t)
      = -(rowProb (fun c => P0 (ix3 (0 : Fin 1) q c)) (cls (P1 (ix3 (0 : Fin 1) (0 : Fin 1) t)))) := by
  have hrow : (fun c : Fin 91 => shapeCast S900x91 P0 shapeCasts_S1x900x91_S900x91 (ix2 q c))
      = fun c => P0 (ix3 (0 : Fin 1) q c) := funext fun c => shapeCast_1ab_ab_apply P0 _ q c
  unfold k0_pay4
  show Ideal.ofBits .f32 0x00000000#32
      - matmul (F := Ideal) dot_S900x91_S91x300_S900x300_1_0_0_1_n_n none (truncf .bf16 _ _) (truncf .bf16 _ _)
          (constant S900x300 .f32 0x00000000#32) (ix2 q t) = _
  rw [contraction_apply, Ideal.ofBits_zero_f32, zero_sub,
    ← sum_mul_indicator (rowProb (fun c => P0 (ix3 (0 : Fin 1) q c))) (cls (P1 (ix3 (0 : Fin 1) (0 : Fin 1) t)))]
  refine congrArg Neg.neg (Finset.sum_congr rfl fun c _ => ?_)
  rw [truncf_apply, truncf_apply]
  exact congr (congrArg HMul.hMul ((softmax_apply _ _ _ _ _ _ _ q c).trans (congrFun (congrArg rowProb hrow) c)))
    (onehot_apply P1 _ _ _ _ _ c t h0 h1)

end Cert.Matcher

end
-- ==== Proof.KernelPayload.lean ====
/-
  The block the kernel stores, read at one (query, target) pair.

  From the query boxes (cx, cy, w, h) and the target boxes the kernel reads the four coordinate columns of each, turns
  each box into corners (centre ∓ half the extent), and computes, for query q and target u:
  * the L1 distance of the two boxes over their four coordinates, |a| being max a (−a);
  * the intersection's area (sides clipped below at 0), the union's area (the two areas less the intersection), the IoU
    (intersection over union plus ε), the hull's area, and the generalised IoU: the IoU less (hull − union) / (hull + ε);
  * 1 · class term + 5 · L1 + 2 · (0 − generalised IoU), the zero being the word of 0.0, which is the extended real 0.
  Every operation is pointwise on [900, 300] after a query vector [900] is laid along the rows and a target vector [300]
  down the columns, so at (q, u) each reads its operands at q and at u. The class term stays the kernel's own payload.
-/
import proofs.«430452_j34591666602013_1_alg».proof.Proof.Gen.KernelIdeal.Frame
import proofs.«430452_j34591666602013_1_alg».proof.Proof.Spec
import proofs.«430452_j34591666602013_1_alg».proof.Proof.KernelClass
import Idealize.ShloMosaic.Lib.ValueIdx
import Idealize.ShloMosaic.Lib.ValueLayout
import Idealize.ShloMosaic.Lib.Pipeline.Value
import Idealize.ShloMosaic.PureOps.Ideal.Laws

noncomputable section

namespace Cert.Matcher

open Cert.KernelIdeal Cert.KernelIdeal.Gen Idealize.ShloMosaic Idealize.ShloMosaic.ValueIdx

/-! ## Layout: a column of a block, a vector laid along the rows or down the columns -/

section Layout
variable {α : Type}

/-- A column `[a, 1]` cast to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Column `k` of a `[1, a, 4]` block, as a column `[a, 1]`, at `(i, 0)`: the block at `(0, i, k)`. -/
theorem col_apply {a : ℕ} (P : (⟨3, ![1, a, 4]⟩ : Shape).Idx → α) (k : Fin 4)
    (h1 : (⟨3, ![1, a, 4]⟩ : Shape).ShapeCasts ⟨2, ![a, 4]⟩)
    (h2 : (⟨2, ![a, 4]⟩ : Shape).Slices ![0, k.val] ⟨2, ![a, 1]⟩) (i : Fin a) :
    extractStridedSlice ⟨2, ![a, 1]⟩ ![0, k.val] (shapeCast ⟨2, ![a, 4]⟩ P h1) h2 (ix2 i (0 : Fin 1)) = P (ix3 (0 : Fin 1) i k) :=
  (slice2_axis1_apply k.val _ h2 i (0 : Fin 1) k (Nat.add_zero _).symm).trans (shapeCast_1ab_ab_apply P h1 i k)

/-- … and as a vector `[a]`, at `i`. -/
theorem colvec_apply {a : ℕ} (P : (⟨3, ![1, a, 4]⟩ : Shape).Idx → α) (k : Fin 4)
    (h1 : (⟨3, ![1, a, 4]⟩ : Shape).ShapeCasts ⟨2, ![a, 4]⟩)
    (h2 : (⟨2, ![a, 4]⟩ : Shape).Slices ![0, k.val] ⟨2, ![a, 1]⟩) (h3 : (⟨2, ![a, 1]⟩ : Shape).ShapeCasts ⟨1, ![a]⟩) (i : Fin a) :
    shapeCast ⟨1, ![a]⟩ (extractStridedSlice ⟨2, ![a, 1]⟩ ![0, k.val] (shapeCast ⟨2, ![a, 4]⟩ P h1) h2) h3 (ix1 i)
      = P (ix3 (0 : Fin 1) i k) :=
  (shapeCast_a1_a_apply _ h3 i).trans (col_apply P k h1 h2 i)

/-- A vector `[a]` laid along the rows of `[a, b]`: at `(p, c)` it is the vector at `p`. -/
theorem rowb {a b : ℕ} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ v h1) h2 (ix2 p c) = v (ix1 p) :=
  (broadcastTo_a1_ab_apply _ h2 p c).trans (shapeCast_a_a1_apply v h1 p 0)

/-- A vector `[b]` laid down the columns of `[a, b]`: at `(p, c)` it is the vector at `c`. -/
theorem colb {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

end Layout

/-- |a| at the ideal values, read at an index. -/
theorem absf_at {s : Shape} {φ : FTy} (a : FVec Ideal s φ) (i : s.Idx) : absf a i = max (a i) (-(a i)) := rfl

/-! ## The box coordinates the kernel reads -/

section Columns
variable (x1 : Vec Ideal S1x900x4 .f32) (x2 : Vec Ideal S1x300x4 .f32) (q : Fin 900) (u : Fin 300)

theorem pay5_at : k0_pay5 (F := Ideal) x1 (ix1 q) = x1 (ix3 (0 : Fin 1) q 0) := colvec_apply x1 0 _ _ _ q
theorem pay6_at : k0_pay6 (F := Ideal) x1 (ix1 q) = x1 (ix3 (0 : Fin 1) q 1) := colvec_apply x1 1 _ _ _ q
theorem pay7_at : k0_pay7 (F := Ideal) x1 (ix1 q) = x1 (ix3 (0 : Fin 1) q 2) := colvec_apply x1 2 _ _ _ q
theorem pay8_at : k0_pay8 (F := Ideal) x1 (ix1 q) = x1 (ix3 (0 : Fin 1) q 3) := colvec_apply x1 3 _ _ _ q
theorem pay9_at : k0_pay9 (F := Ideal) x2 (ix1 u) = x2 (ix3 (0 : Fin 1) u 0) := colvec_apply x2 0 _ _ _ u
theorem pay10_at : k0_pay10 (F := Ideal) x2 (ix1 u) = x2 (ix3 (0 : Fin 1) u 1) := colvec_apply x2 1 _ _ _ u
theorem pay11_at : k0_pay11 (F := Ideal) x2 (ix1 u) = x2 (ix3 (0 : Fin 1) u 2) := colvec_apply x2 2 _ _ _ u
theorem pay13_at : k0_pay13 (F := Ideal) (k0_pay12 (F := Ideal) x2) (ix1 u) = x2 (ix3 (0 : Fin 1) u 3) := by
  unfold k0_pay13 k0_pay12
  exact colvec_apply x2 3 _ _ _ u

end Columns

/-! ## The corners -/

section Corners
variable (a c : FVec Ideal S900 .f32) (d : FVec Ideal S300 .f32) (e : FVec Ideal S300x1 .f32) (q : Fin 900) (u : Fin 300)

theorem pay15_at : k0_pay15 (F := Ideal) a c (ix1 q) = lo (a (ix1 q)) (c (ix1 q)) := rfl
theorem pay16_at : k0_pay16 (F := Ideal) a c (ix1 q) = lo (a (ix1 q)) (c (ix1 q)) := rfl
theorem pay17_at : k0_pay17 (F := Ideal) a c (ix1 q) = hi (a (ix1 q)) (c (ix1 q)) := rfl
theorem pay18_at : k0_pay18 (F := Ideal) a c (ix1 q) = hi (a (ix1 q)) (c (ix1 q)) := rfl
theorem pay19_at (d' : FVec Ideal S300 .f32) : k0_pay19 (F := Ideal) d d' (ix1 u) = lo (d (ix1 u)) (d' (ix1 u)) := rfl
theorem pay20_at : k0_pay20 (F := Ideal) d e (ix1 u) = lo (d (ix1 u)) (k0_pay13 (F := Ideal) e (ix1 u)) := rfl
theorem pay21_at (d' : FVec Ideal S300 .f32) : k0_pay21 (F := Ideal) d d' (ix1 u) = hi (d (ix1 u)) (d' (ix1 u)) := rfl
theorem pay22_at : k0_pay22 (F := Ideal) d e (ix1 u) = hi (d (ix1 u)) (k0_pay13 (F := Ideal) e (ix1 u)) := rfl

end Corners

/-! ## The L1 term -/

theorem pay14_at (a0 a1 a2 a3 : FVec Ideal S900 .f32) (c0 c1 c2 : FVec Ideal S300 .f32) (c3 : FVec Ideal S300x1 .f32)
    (q : Fin 900) (u : Fin 300) :
    k0_pay14 (F := Ideal) a0 a1 a2 a3 c0 c1 c2 c3 (ix2 q u)
      = l1Of (a0 (ix1 q)) (a1 (ix1 q)) (a2 (ix1 q)) (a3 (ix1 q)) (c0 (ix1 u)) (c1 (ix1 u)) (c2 (ix1 u))
          (k0_pay13 (F := Ideal) c3 (ix1 u)) := by
  unfold k0_pay14
  simp only [addf_apply, subf_apply, absf_at, rowb, colb]
  rfl

/-! ## Intersection, union, and the two quotients of the generalised IoU -/

section Areas
variable (l1 l2 h1 h2 : FVec Ideal S900 .f32) (m1 m2 g1 g2 : FVec Ideal S300 .f32) (q : Fin 900) (u : Fin 300)

/-- The intersection's area from the corner vectors (low x, low y, high x, high y of the query; the same of the target). -/
theorem pay23_at : k0_pay23 (F := Ideal) l1 l2 h1 h2 m1 m2 g1 g2 (ix2 q u)
    = side (max (l1 (ix1 q)) (m1 (ix1 u))) (min (h1 (ix1 q)) (g1 (ix1 u)))
        * side (max (l2 (ix1 q)) (m2 (ix1 u))) (min (h2 (ix1 q)) (g2 (ix1 u))) := by
  unfold k0_pay23
  simp only [mulf_apply, subf_apply, maximumf_apply, minimumf_apply, broadcast_apply, rowb, colb, Ideal.ofBits_def,
    Ideal.ofBits_zero_f32]
  rfl

/-- The union's area: the two boxes' areas less the intersection's. -/
theorem pay24_at : k0_pay24 (F := Ideal) l1 l2 h1 h2 m1 m2 g1 g2 (ix2 q u)
    = side (l1 (ix1 q)) (h1 (ix1 q)) * side (l2 (ix1 q)) (h2 (ix1 q))
        + side (m1 (ix1 u)) (g1 (ix1 u)) * side (m2 (ix1 u)) (g2 (ix1 u))
        - k0_pay23 (F := Ideal) l1 l2 h1 h2 m1 m2 g1 g2 (ix2 q u) := by
  unfold k0_pay24
  simp only [addf_apply, mulf_apply, subf_apply, maximumf_apply, broadcast_apply, rowb, colb, Ideal.ofBits_def,
    Ideal.ofBits_zero_f32]
  rfl

/-- The IoU: the intersection over the union plus ε. -/
theorem pay25_at : k0_pay25 (F := Ideal) l1 l2 h1 h2 m1 m2 g1 g2 (ix2 q u)
    = Ideal.div (k0_pay23 (F := Ideal) l1 l2 h1 h2 m1 m2 g1 g2 (ix2 q u))
        (k0_pay24 (F := Ideal) l1 l2 h1 h2 m1 m2 g1 g2 (ix2 q u) + eps) := rfl

theorem pay26_at : k0_pay26 (F := Ideal) m1 (ix2 (0 : Fin 1) u) = m1 (ix1 u) := by
  unfold k0_pay26
  exact shapeCast_a_1a_apply m1 _ 0 u

theorem pay27_at : k0_pay27 (F := Ideal) l1 (ix2 q u) = l1 (ix1 q) := by
  unfold k0_pay27
  exact rowb l1 _ _ q u

end Areas

/-! ## The weighted sum -/

/-- The stored block at (0, q, u), from the class term, the L1 term, the corner vectors, the union, the IoU and the two
    low-x corners laid out: the three terms weighted and summed, the generalised IoU being the IoU less the share of the
    hull the union leaves empty. -/
theorem pay1_at (cc cb : FVec Ideal S900x300 .f32) (l2 h1 h2 : FVec Ideal S900 .f32) (m2 g1 g2 : FVec Ideal S300 .f32)
    (un io : FVec Ideal S900x300 .f32) (m1r : FVec Ideal S1x300 .f32) (l1b : FVec Ideal S900x300 .f32) (q : Fin 900) (u : Fin 300) :
    k0_pay1 (F := Ideal) cc cb l2 h1 h2 m2 g1 g2 un io m1r l1b (ix3 (0 : Fin 1) q u)
      = wClass * cc (ix2 q u) + wBox * cb (ix2 q u)
        + wGiou * (-(io (ix2 q u)
              - Ideal.div
                  (side (min (l1b (ix2 q u)) (m1r (ix2 (0 : Fin 1) u))) (max (h1 (ix1 q)) (g1 (ix1 u)))
                      * side (min (l2 (ix1 q)) (m2 (ix1 u))) (max (h2 (ix1 q)) (g2 (ix1 u))) - un (ix2 q u))
                  (side (min (l1b (ix2 q u)) (m1r (ix2 (0 : Fin 1) u))) (max (h1 (ix1 q)) (g1 (ix1 u)))
                      * side (min (l2 (ix1 q)) (m2 (ix1 u))) (max (h2 (ix1 q)) (g2 (ix1 u))) + eps))) := by
  unfold k0_pay1
  rw [shapeCast_ab_1ab_apply]
  simp only [addf_apply, mulf_apply, subf_apply, divf_apply, maximumf_apply, minimumf_apply, broadcast_apply, rowb, colb,
    broadcastTo_1b_ab_apply, shapeCast_a_1a_apply, Ideal.ofBits_def, Ideal.ofBits_zero_f32, zero_sub]
  rfl

/-! ## The stored block -/

/-- THE BLOCK THE KERNEL STORES, at (0, q, u): the class payload, the L1 distance and the generalised IoU of query q's
    box and target u's, weighted and summed. -/
theorem out0_4_at (x0 : Vec Ideal S1x900x91 .f32) (x1 : Vec Ideal S1x900x4 .f32) (x2 : Vec Ideal S1x300x4 .f32)
    (x3 : Vec Ideal S1x1x300 .i32) (q : Fin 900) (u : Fin 300) :
    out0_4 (F := Ideal) x0 x1 x2 x3 (ix3 (0 : Fin 1) q u)
      = combine (k0_pay4 (F := Ideal) x0 x3 (ix2 q u))
          (l1Of (x1 (ix3 (0 : Fin 1) q 0)) (x1 (ix3 (0 : Fin 1) q 1)) (x1 (ix3 (0 : Fin 1) q 2)) (x1 (ix3 (0 : Fin 1) q 3))
            (x2 (ix3 (0 : Fin 1) u 0)) (x2 (ix3 (0 : Fin 1) u 1)) (x2 (ix3 (0 : Fin 1) u 2)) (x2 (ix3 (0 : Fin 1) u 3)))
          (giouOf (x1 (ix3 (0 : Fin 1) q 0)) (x1 (ix3 (0 : Fin 1) q 1)) (x1 (ix3 (0 : Fin 1) q 2)) (x1 (ix3 (0 : Fin 1) q 3))
            (x2 (ix3 (0 : Fin 1) u 0)) (x2 (ix3 (0 : Fin 1) u 1)) (x2 (ix3 (0 : Fin 1) u 2)) (x2 (ix3 (0 : Fin 1) u 3))) := by
  have hz : (![0, 0, 0] : Fin 3 → Nat) = fun _ => 0 := by
    funext a; fin_cases a <;> rfl
  unfold out0_4
  rw [View.canon_unit_zero hz, View.ld_unit_zero (S := S1x900x91) hz, View.ld_unit_zero (S := S1x900x4) hz,
    View.ld_unit_zero (S := S1x300x4) hz, View.ld_unit_zero (S := S1x1x300) hz]
  rw [pay1_at]
  simp only [pay14_at, pay23_at, pay24_at, pay25_at, pay26_at, pay27_at, pay15_at, pay16_at, pay17_at, pay18_at, pay19_at,
    pay20_at, pay21_at, pay22_at, pay5_at, pay6_at, pay7_at, pay8_at, pay9_at, pay10_at, pay11_at, pay13_at]
  unfold combine giouOf unionOf interOf hullOf areaOf
  rfl

end Cert.Matcher

end
-- ==== Proof.KernelFinal.lean ====
/-
  The kernel's result array is the cost tensor of the specification.

  At grid point `t` the body stores one whole block. Its entry `(0, q, u)` is the weighted sum of the three terms over
  the point's loaded blocks; the class term is minus the softmax probability of target `u`'s class (the one-hot
  contraction picks it), the box terms are the specification's own formulas of the eight coordinates. Each loaded block
  is batch `t` of its array, so the block written back is batch `t` of the specification's tensor; the 64 points'
  blocks tile the result, which therefore ends holding that tensor.
-/
import proofs.«430452_j34591666602013_1_alg».proof.Proof.KernelValue
import proofs.«430452_j34591666602013_1_alg».proof.Proof.KernelBlocks
import proofs.«430452_j34591666602013_1_alg».proof.Proof.KernelClass
import proofs.«430452_j34591666602013_1_alg».proof.Proof.KernelPayload
import proofs.«430452_j34591666602013_1_alg».proof.Proof.Spec
import Idealize.ShloMosaic.PureOps.Ideal.Laws

noncomputable section

namespace Cert.Matcher.KFinal

open Cert.KernelIdeal Cert.KernelIdeal.Gen Cert.KernelIdeal.ValueP Idealize.ShloMosaic Idealize.ShloMosaic.TcCoe Idealize.SL.Sem
open Idealize.ShloMosaic.ValueIdx Cert.Matcher Cert.Matcher.KBlocks
open Idealize.ShloMosaic.Pipeline (Dat)

variable (m : (ℓ : Loc nD τ sig) → Buf (Elt Ideal) ℓ) (ρ : Dev nD → PrngReg)

/-- The specification's tensor of the arrays as the region finds them on core `c`. -/
abbrev G (c : Dev nD) : S64x900x300.Idx → EReal :=
  cost (V m c main_arg0) (V m c main_arg1) (V m c main_arg2) (m ((c : Thread nD τ).loc main_arg3))

/-- What the body leaves at `(0, q, u)` of the block at point `t` is the specification's entry `(t, q, u)`. -/
theorem out_at (c : Dev nD) (hin : InRange (m ((c : Thread nD τ).loc main_arg3))) (t : Fin cfg0.N) (q : Fin 900) (u : Fin 300) :
    out0_4 (xblk m c t) (bblk m c t) (tblk m c t) (lblk m c t) (ix3 (0 : Fin 1) q u) = G m c (ix3 (batchOf t) q u) := by
  have hl := lblk_apply m c t u
  have h0 : 0 ≤ (lblk m c t (ix3 (0 : Fin 1) (0 : Fin 1) u)).toInt := by rw [hl]; exact (hin (batchOf t) u).1
  have h1 : (lblk m c t (ix3 (0 : Fin 1) (0 : Fin 1) u)).toInt < 91 := by rw [hl]; exact (hin (batchOf t) u).2
  rw [out0_4_at (xblk m c t) (bblk m c t) (tblk m c t) (lblk m c t) q u,
    k0_pay4_apply (xblk m c t) (lblk m c t) q u h0 h1]
  simp only [xblk_apply, bblk_apply, tblk_apply, hl]
  rfl

/-- WHAT POINT `t` WRITES BACK is block `t` of the specification's tensor. -/
theorem flushed_eq (c : Dev nD) (hin : InRange (m ((c : Thread nD τ).loc main_arg3))) (t : Fin cfg0.N) :
    (dats m 0 c).flushed 4 t = ((cfg0.win 4).blk t).view.read (Elt Ideal) (G m c) := by
  rw [flushed4]
  funext j
  have hj0 : (j 0).val < 1 := (j 0).isLt
  have hj1 : (j 1).val < 900 := (j 1).isLt
  have hj2 : (j 2).val < 300 := (j 2).isLt
  obtain ⟨-, -, -, -, e0, e1, e2⟩ := idx_facts t
  have ej : (j : S1x900x300.Idx) = ix3 (0 : Fin 1) (⟨(j 1).val, hj1⟩ : Fin 900) (⟨(j 2).val, hj2⟩ : Fin 300) := by
    funext a; refine Fin.ext ?_
    match a with
    | ⟨0, _⟩ => show (j 0).val = 0; omega
    | ⟨1, _⟩ => rfl
    | ⟨2, _⟩ => rfl
  have ee : ((cfg0.win 4).blk t).view.emb j
      = ix3 (batchOf t) (⟨(j 1).val, hj1⟩ : Fin 900) (⟨(j 2).val, hj2⟩ : Fin 300) := by
    funext a; refine Fin.ext ?_
    match a with
    | ⟨0, _⟩ => show win0_4.index t (0 : Fin 3) * 1 + 1 * (j 0).val = t.val; omega
    | ⟨1, _⟩ => show win0_4.index t (1 : Fin 3) * 900 + 1 * (j 1).val = (j 1).val; omega
    | ⟨2, _⟩ => show win0_4.index t (2 : Fin 3) * 300 + 1 * (j 2).val = (j 2).val; omega
  show out0_4 (xblk m c t) (bblk m c t) (tblk m c t) (lblk m c t) j = G m c (((cfg0.win 4).blk t).view.emb j)
  exact (congrArg (out0_4 (xblk m c t) (bblk m c t) (tblk m c t) (lblk m c t)) ej).trans
    ((out_at m c hin t _ _).trans (congrArg (G m c) ee.symm))

/-- An index of the result is in point `t`'s block iff each coordinate is in the block's range on its axis. -/
theorem mem_blk (t : Fin cfg0.N) (i : S64x900x300.Idx) :
    i ∈ ((cfg0.win 4).blk t).view.set ↔ ∀ a : Fin 3, win0_4.index t a * S1x900x300.size a ≤ (i a).val
      ∧ (i a).val < win0_4.index t a * S1x900x300.size a + S1x900x300.size a := by
  show i ∈ ((View.whole main_v1).slice (win0_4.rect t)).set ↔ _
  rw [View.set_slice_whole, Rect.mem_set_unit]
  exact Iff.rfl

/-- Every index of the result lies in the block of the point of its batch. -/
theorem cover (i : S64x900x300.Idx) :
    ∃ t : Fin cfg0.N, (cfg0.win 4).flush t = true ∧ i ∈ ((cfg0.win 4).blk t).view.set := by
  have h0 : (i 0).val < 64 := (i 0).isLt
  have h1 : (i 1).val < 900 := (i 1).isLt
  have h2 : (i 2).val < 300 := (i 2).isLt
  obtain ⟨t, ht⟩ : ∃ t : Fin cfg0.N, t.val = (i 0).val := ⟨⟨(i 0).val, h0⟩, rfl⟩
  obtain ⟨-, -, -, -, e0, e1, e2⟩ := idx_facts t
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 900 ≤ (i 1).val ∧ (i 1).val < win0_4.index t (1 : Fin 3) * 900 + 900
    omega
  | ⟨2, _⟩ =>
    show win0_4.index t (2 : Fin 3) * 300 ≤ (i 2).val ∧ (i 2).val < win0_4.index t (2 : Fin 3) * 300 + 300
    omega

/-- THE RESULT ARRAY after the run is the specification's tensor. -/
theorem final (c : Dev nD) (hin : InRange (m ((c : Thread nD τ).loc main_arg3))) :
    (dats m 0 c).arrAt 4 cfg0.N = G m c :=
  (dats m 0 c).arrAt_eq_of_cover 4 (G m c) (fun t _ => flushed_eq m c hin t) cover

/-- THE RUN: under labels in the class range, every weakly fair execution of the kernel's program ends with the result
    array at the specification's cost tensor of the argument arrays, and the arguments unchanged. -/
theorem run (hin : ∀ c : Dev nD, InRange (m ((c : Thread nD τ).loc main_arg3))) :
    θ_run defs (onTc (τ := τ) (main (F := Ideal))) ⟨m, fun _ => 0, ρ⟩ fun r => ∀ c : Dev nD,
      r.2.mem ((c : Thread nD τ).loc main_v1)
          = cost (m ((c : Thread nD τ).loc main_arg0)) (m ((c : Thread nD τ).loc main_arg1))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1.trans (final m c (hin c))).trans (by
      show cost (V m c main_arg0) (V m c main_arg1) (V m c main_arg2) _ = _
      rw [V_main_arg0, V_main_arg1, V_main_arg2]), (h c).2⟩)
    (run_blocks m ρ)

end Cert.Matcher.KFinal

end
-- ==== Proof.LibTakeAlong.lean ====
/-
  A BATCHED TAKE ALONG THE LAST AXIS, read at an index.

  `jnp.take_along_axis(x, idx[:, None, :], axis=2)` of an operand `x : [B, Q, C]` at integer indices `idx : [B, T]`
  lowers to one gather over the indices laid out as `[B, T, 1]`: the batch axis paired on both sides, the query axis
  kept whole as the one offset axis, the class axis collapsed and addressed by the index. Its element `(b, q, t)` is the
  operand at `(b, q, k)` with `k` the index word `idx[b, t, 0]` read signed and clamped into `[0, C − 1]`, as every
  gather clamps its start index.
-/
import Idealize.ShloMosaic.PureOps.ShapeOps
import Idealize.ShloMosaic.Lib.ValueIdx

noncomputable section

namespace Idealize.ShloMosaic.TakeAlong

open Idealize.ShloMosaic Idealize.ShloMosaic.ValueIdx

variable {α : Type}

/-- The gather's dimension numbers for an operand `[B, Q, C]`, start indices `[B, T, 1]` and result `[B, Q, T]`; their
    side conditions `wf` are decided on a program's literal shapes. -/
abbrev dims (B Q C T : Nat)
    (wf : GatherDims.WF ⟨3, ![B, Q, C]⟩ ⟨3, ![B, T, 1]⟩ ⟨3, ![B, Q, T]⟩ [1] [2] [0] [2] [0] 2 ![1, Q, 1]) :
    GatherDims ⟨3, ![B, Q, C]⟩ ⟨3, ![B, T, 1]⟩ ⟨3, ![B, Q, T]⟩ where
  offsetDims := [1]
  collapsedSliceDims := [2]
  operandBatchingDims := [0]
  startIndicesBatchingDims := [0]
  startIndexMap := [2]
  indexVectorDim := 2
  sliceSizes := ![1, Q, 1]
  wf := wf

/-- THE GATHER READ AT `(b, q, t)`: the operand at `(b, q, k)`, `k` the start index `idx[b, t, 0]` read signed and
    clamped into `[0, C − 1]`. -/
theorem gather_apply {B Q C T w : Nat} (hC : 0 < C)
    (wf : GatherDims.WF ⟨3, ![B, Q, C]⟩ ⟨3, ![B, T, 1]⟩ ⟨3, ![B, Q, T]⟩ [1] [2] [0] [2] [0] 2 ![1, Q, 1])
    (x : (⟨3, ![B, Q, C]⟩ : Shape).Idx → α) (idx : IVec ⟨3, ![B, T, 1]⟩ w) (b : Fin B) (q : Fin Q) (t : Fin T) :
    Host.gather (dims B Q C T wf) x idx (ix3 b q t)
      = x (ix3 b q ⟨min (idx (ix3 b t (0 : Fin 1))).toInt.toNat (C - 1), by omega⟩) := by
  unfold Host.gather
  congr 1
  funext a
  refine Fin.ext ?_
  show (dims B Q C T wf).start (ix3 b q t) idx a + (dims B Q C T wf).batchCoord (ix3 b q t) a
      + (dims B Q C T wf).offCoord (ix3 b q t) a = _
  have n10 : (⟨1, by decide⟩ : Fin 3) ≠ 0 := by decide
  have n12 : (⟨1, by decide⟩ : Fin 3) ≠ 2 := by decide
  have n20 : (⟨2, by decide⟩ : Fin 3) ≠ 0 := by decide
  match a with
  | ⟨0, _⟩ =>
    -- the batch axis: no start, no offset; the batching coordinate is the result's batch coordinate
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, by decide⟩ : Fin 3) ∈ (dims B Q C T wf).operandBatchingDims from List.mem_singleton.mpr rfl)]
    rfl
  | ⟨1, _⟩ =>
    -- the query axis: the one offset axis, read whole
    have hns : (⟨1, by decide⟩ : Fin 3) ∉ (dims B Q C T wf).startIndexMap := fun h => n12 (List.mem_singleton.mp h)
    have hnb : (⟨1, by decide⟩ : Fin 3) ∉ (dims B Q C T wf).operandBatchingDims := fun h => n10 (List.mem_singleton.mp h)
    have hnc : (⟨1, by decide⟩ : Fin 3) ∉ (dims B Q C T wf).collapsedSliceDims := fun h => n12 (List.mem_singleton.mp h)
    unfold GatherDims.start
    rw [dif_neg hns, GatherDims.batchCoord_eq_zero _ _ _ hnb]
    simp only [Nat.zero_add, Nat.add_zero]
    unfold GatherDims.offCoord
    rw [dif_pos ((GatherDims.mem_sKept _ _).mpr ⟨hnc, hnb⟩)]
    rfl
  | ⟨2, _⟩ =>
    -- the class axis: collapsed, addressed by the clamped start index
    have hnb : (⟨2, by decide⟩ : Fin 3) ∉ (dims B Q C T wf).operandBatchingDims := fun h => n20 (List.mem_singleton.mp h)
    rw [GatherDims.batchCoord_eq_zero _ _ _ hnb,
      GatherDims.offCoord_eq_zero _ _ _ (fun h => ((GatherDims.mem_sKept _ _).mp h).1 (List.mem_singleton.mpr rfl))]
    simp only [Nat.add_zero]
    unfold GatherDims.start
    rw [dif_pos (show (⟨2, by decide⟩ : Fin 3) ∈ (dims B Q C T wf).startIndexMap from List.mem_singleton.mpr rfl)]
    have hsi : (dims B Q C T wf).siIdx (ix3 b q t) ⟨List.idxOf (⟨2, by decide⟩ : Fin 3) (dims B Q C T wf).startIndexMap,
        List.idxOf_lt_length_iff.2 (List.mem_singleton.mpr rfl)⟩ = ix3 b t (0 : Fin 1) := by
      funext c; refine Fin.ext ?_
      match c with
      | ⟨0, _⟩ => rfl
      | ⟨1, _⟩ => rfl
      | ⟨2, _⟩ => rfl
    rw [hsi]
    rfl

end Idealize.ShloMosaic.TakeAlong

end
-- ==== Proof.RefClassOps.lean ====
/-
  The stages of the reference's class term that are not one-element reads: the row maximum of the logits, the
  conjunction over a unit axis that closes the range mask, the take along the class axis, and the three comparison
  words the range mask makes of a label in the class range.

  * The row maximum is a reduction by max over the class axis from −∞: at (b, q) it is the fold of max over the 91
    logits of query q in batch b.
  * A conjunction over an axis of extent 1, from true, is its one element.
  * The take along the class axis at (b, q, t) reads the operand at (b, q, k), with k the index word at (b, t, 0)
    read signed and clamped into [0, 90].
  * A label w with 0 ≤ w < 91 read signed is not below 0, is at least 0 and is at most 90.
-/
import proofs.«430452_j34591666602013_1_alg».proof.ReferenceIdeal
import proofs.«430452_j34591666602013_1_alg».proof.Proof.Gen.ReferenceIdeal
import proofs.«430452_j34591666602013_1_alg».proof.Proof.Spec
import proofs.«430452_j34591666602013_1_alg».proof.Proof.LibTakeAlong
import Idealize.ShloMosaic.PureOps.Reduce
import Idealize.ShloMosaic.PureOps.Ideal.Laws
import Idealize.ShloMosaic.Lib.Affine

noncomputable section

namespace Cert.Matcher

open Cert.ReferenceIdeal Cert.ReferenceIdeal.Gen Idealize.ShloMosaic Idealize.ShloMosaic.ValueIdx

/-- The reduction by max over the class axis, from −∞, at (b, q): the largest of query q's 91 logits in batch b. -/
theorem ref_rowMax (x0 : FVec Ideal S64x900x91 .f32) (b : Fin 64) (q : Fin 900) :
    Host.reduce (FloatOps.maximumf (F := Ideal) (φ := .f32)) x0 (constant (F := Ideal) S_ .f32 0xFF800000#32)
      reducesTo_S64x900x91_S64x900_d2 h_S_ (ix2 b q) = rowMax (logitRow x0 b q) := by
  have hR : S64x900x91.Reduces [2] S64x900 := by decide
  rw [Host.reduce_eq_fold_single _ x0 _ reducesTo_S64x900x91_S64x900_d2 hR h_S_ (ix2 b q)]
  -- the index over (b, q) with class c inserted is (b, q, c)
  have hf : (x0 ∘ hR.lift (ix2 b q)) = logitRow x0 b q := by
    funext c
    show x0 (hR.lift (ix2 b q) c) = x0 (ix3 b q c)
    congr 1
    funext a
    refine Fin.ext ?_
    match a with
    | ⟨0, _⟩ => rfl
    | ⟨1, _⟩ => rfl
    | ⟨2, _⟩ => rfl
  rw [hf]
  rfl

/-- The conjunction over an axis of extent 1, from true, is the one element. -/
theorem ref_all_unit (p : IVec S64x300x1 1) (b : Fin 64) (t : Fin 300) :
    Host.reduce IntOp.andi p (constantI S_ 1 1#1) reducesTo_S64x300x1_S64x300_d2 h_S_ (ix2 b t)
      = p (ix3 b t (0 : Fin 1)) := by
  have hR : S64x300x1.Reduces [2] S64x300 := by decide
  rw [Host.reduce_eq_fold_single _ p _ reducesTo_S64x300x1_S64x300_d2 hR h_S_ (ix2 b t)]
  show (Finset.univ : Finset (Fin 1)).fold IntOp.andi (1#1) (fun k : Fin 1 => p (hR.lift (ix2 b t) k)) = _
  rw [Finset.univ_unique, Finset.fold_singleton]
  -- the index over (b, t) with coordinate 0 inserted is (b, t, 0)
  have hi : hR.lift (ix2 b t) (default : Fin 1) = ix3 b t (0 : Fin 1) := by
    funext a
    refine Fin.ext ?_
    match a with
    | ⟨0, _⟩ => rfl
    | ⟨1, _⟩ => rfl
    | ⟨2, _⟩ => rfl
  show IntOp.andi (p (hR.lift (ix2 b t) (default : Fin 1))) (1#1) = _
  rw [hi]
  have one : ∀ c : BitVec 1, IntOp.andi c (1#1) = c := by decide
  exact one _

/-- The take along the class axis at (b, q, t): the operand at (b, q, k), k the index word at (b, t, 0) read signed
    and clamped into [0, 90]. -/
theorem ref_gather {α : Type} (x : S64x900x91.Idx → α) (idx : IVec S64x300x1 32) (b : Fin 64) (q : Fin 900)
    (t : Fin 300) :
    Host.gather gather_S64x900x91_S64x300x1_S64x900x300_1_2_0_0_2_2_19001 x idx (ix3 b q t)
      = x (ix3 b q ⟨min (idx (ix3 b t (0 : Fin 1))).toInt.toNat 90, by omega⟩) := by
  have e : gather_S64x900x91_S64x300x1_S64x900x300_1_2_0_0_2_2_19001
      = TakeAlong.dims 64 900 91 300 gather_S64x900x91_S64x300x1_S64x900x300_1_2_0_0_2_2_19001_wf := rfl
  rw [e]
  exact TakeAlong.gather_apply (by decide) _ x idx b q t

/-- The three comparisons the range mask makes, on a label in the class range: not below 0, at least 0, at most 90. -/
theorem mask_bits {w : BitVec 32} (h0 : 0 ≤ w.toInt) (h1 : w.toInt < 91) :
    IntOp.cmpi .slt w 0#32 = 0#1 ∧ IntOp.cmpi .sge w 0#32 = 1#1 ∧ IntOp.cmpi .sle w 90#32 = 1#1 := by
  have z : (0#32 : BitVec 32).toInt = 0 := by decide
  have n : (90#32 : BitVec 32).toInt = 90 := by decide
  have bit : ∀ c : BitVec 1, ¬c = 1#1 → c = 0#1 := by decide
  refine ⟨bit _ fun hc => ?_, IntOp.cmpi_sge.2 (by rw [z]; exact h0), IntOp.cmpi_sle.2 (by rw [n]; omega)⟩
  have hlt := IntOp.cmpi_slt.1 hc
  rw [z] at hlt
  omega

end Cert.Matcher

end
-- ==== Proof.RefClass.lean ====
/-
  The reference's class term, read at (b, q, t): minus the softmax probability that query q's logits in batch b give
  to target t's class.

  The reference shifts a row of logits by its maximum (a reduction by max from −∞, then once more the maximum with −∞,
  which changes nothing), exponentiates, and divides by the row's sum (a reduction by + from the zero word): entry
  (b, q, c) of that array is the softmax of the row at class c. The label word of target t passes a wrap-around select
  (a negative label would have 91 added) and a reshape; on a label in the class range the select keeps the word. The
  take along the class axis then reads the softmax array at (b, q, k), k the word clamped into [0, 90], and a range
  mask (0 ≤ word ≤ 90, a conjunction over a unit axis) selects between that entry and a NaN: the mask bit is 1 on a label
  in range. The result is negated.
-/
import proofs.«430452_j34591666602013_1_alg».proof.Proof.RefRead
import proofs.«430452_j34591666602013_1_alg».proof.Proof.Spec
import proofs.«430452_j34591666602013_1_alg».proof.Proof.RefClassOps
import Idealize.ShloMosaic.PureOps.Ideal.Laws
import Idealize.ShloMosaic.Lib.ValueIdx

noncomputable section

namespace Cert.Matcher

open Cert.ReferenceIdeal Cert.ReferenceIdeal.Gen Cert.ReferenceIdeal.ReadP Idealize.ShloMosaic Idealize.ShloMosaic.ValueIdx
  Cert.Matcher

/-! ## The softmax array -/

/-- The shift: the row maximum of query q's logits in batch b (the second maximum with −∞ changes nothing). -/
theorem ref_shift (x0 : FVec Ideal S64x900x91 .f32) (b : Fin 64) (q : Fin 900) :
    val_main_v2 (F := Ideal) x0 (ix2 b q) = rowMax (logitRow x0 b q) := by
  rw [val_main_v2_apply, val_main_v1_apply, val_main_cst_0_apply]
  have e0 : val_main_v0 (F := Ideal) x0 (ix2 b q) = rowMax (logitRow x0 b q) := by
    unfold val_main_v0 val_main_cst
    exact ref_rowMax x0 b q
  rw [e0]
  exact max_negInf_rowMax (logitRow x0 b q)

/-- The softmax numerator at (b, q, c): the logit less the row maximum, exponentiated. -/
theorem ref_exp (x0 : FVec Ideal S64x900x91 .f32) (b : Fin 64) (q : Fin 900) (c : Fin 91) :
    val_main_v6 (F := Ideal) x0 (ix3 b q c) = rowExp (logitRow x0 b q) c := by
  rw [val_main_v6_apply, val_main_v5_apply, val_main_v4_apply, val_main_v3_apply]
  have ei : idx_main_v3 (idx_main_v4 (ix3 b q c)) = ix2 b q := by
    funext a
    refine Fin.ext ?_
    match a with
    | ⟨0, _⟩ => rfl
    | ⟨1, _⟩ => rfl
  rw [ei, ref_shift]
  rfl

/-- The softmax denominator at (b, q, c): the sum of the row's numerators. -/
theorem ref_denom (x0 : FVec Ideal S64x900x91 .f32) (b : Fin 64) (q : Fin 900) (c : Fin 91) :
    val_main_v9 (F := Ideal) x0 (ix3 b q c) = ∑ c' : Fin 91, rowExp (logitRow x0 b q) c' := by
  rw [val_main_v9_apply, val_main_v8_apply]
  have ei : idx_main_v8 (idx_main_v9 (ix3 b q c)) = ix2 b q := by
    funext a
    refine Fin.ext ?_
    match a with
    | ⟨0, _⟩ => rfl
    | ⟨1, _⟩ => rfl
  rw [ei, val_main_v7_apply, val_main_cst_1_apply, Ideal.ofBits_def, Ideal.ofBits_zero_f32, zero_add]
  refine Finset.sum_congr rfl fun k _ => ?_
  have ek : idx_main_v7 (ix2 b q) k = ix3 b q k := by
    funext a
    refine Fin.ext ?_
    match a with
    | ⟨0, _⟩ => rfl
    | ⟨1, _⟩ => rfl
    | ⟨2, _⟩ => rfl
  rw [ek]
  exact ref_exp x0 b q k

/-- The softmax array at (b, q, c): the probability the row gives class c. -/
theorem ref_prob (x0 : FVec Ideal S64x900x91 .f32) (b : Fin 64) (q : Fin 900) (c : Fin 91) :
    val_main_v10 (F := Ideal) x0 (ix3 b q c) = rowProb (logitRow x0 b q) c := by
  rw [val_main_v10_apply, ref_exp, ref_denom]
  rfl

/-! ## The label word and the range mask -/

/-- The label word after the wrap-around select and the reshape, at (b, t, 0): on a label in range, the label. -/
theorem ref_label (x3 : IVec S64x300 32) (hin : InRange x3) (b : Fin 64) (t : Fin 300) :
    val_main_call0_v5 (F := Ideal) x3 (ix3 b t (0 : Fin 1)) = x3 (ix2 b t) := by
  rw [val_main_call0_v5_apply]
  have ei : idx_main_call0_v5 (ix3 b t (0 : Fin 1)) = ix3 b (0 : Fin 1) t := by
    funext a
    refine Fin.ext ?_
    have hb := b.isLt
    have ht := t.isLt
    match a with
    | ⟨0, _⟩ => show ((b.val * 300 + t.val) * 1 + 0) / 300 = b.val; omega
    | ⟨1, _⟩ => rfl
    | ⟨2, _⟩ => show ((b.val * 300 + t.val) * 1 + 0) % 300 = t.val; omega
  rw [ei, val_main_call0_v4_apply, val_main_call0_v1_apply, val_main_call0_v0_apply, val_main_call0_c_apply,
    val_main_v11_apply]
  have ej : idx_main_v11 (ix3 b (0 : Fin 1) t) = ix2 b t := by
    funext a
    refine Fin.ext ?_
    match a with
    | ⟨0, _⟩ => rfl
    | ⟨1, _⟩ => rfl
  rw [ej, (mask_bits (hin b t).1 (hin b t).2).1]
  exact select_zero _ _

/-- The range mask at (b, q, t): 1 on a label in range. -/
theorem ref_mask (x3 : IVec S64x300 32) (hin : InRange x3) (b : Fin 64) (q : Fin 900) (t : Fin 300) :
    val_main_call0_v14 (F := Ideal) x3 (ix3 b q t) = 1#1 := by
  rw [val_main_call0_v14_apply]
  have ei : idx_main_call0_v14 (ix3 b q t) = ix2 b t := by
    funext a
    refine Fin.ext ?_
    match a with
    | ⟨0, _⟩ => rfl
    | ⟨1, _⟩ => rfl
  rw [ei]
  have e12 : val_main_call0_v12 (F := Ideal) x3 (ix2 b t) = val_main_call0_v11 (F := Ideal) x3 (ix3 b t (0 : Fin 1)) := by
    unfold val_main_call0_v12 val_main_call0_c_3
    exact ref_all_unit _ b t
  rw [e12, val_main_call0_v11_apply, val_main_call0_v7_apply, val_main_call0_v10_apply, ref_label x3 hin b t,
    val_main_call0_v6_apply, val_main_call0_c_2_apply, val_main_call0_v9_apply, val_main_call0_v8_apply,
    val_main_call0_c_1_apply]
  obtain ⟨-, hge, hle⟩ := mask_bits (hin b t).1 (hin b t).2
  rw [hge, hle]
  rfl

/-! ## The class term -/

/-- The take along the class axis at (b, q, t): the softmax array at (b, q, class of target t's label). -/
theorem ref_take (x0 : FVec Ideal S64x900x91 .f32) (x3 : IVec S64x300 32) (hin : InRange x3) (b : Fin 64) (q : Fin 900)
    (t : Fin 300) :
    val_main_call0_v13 (F := Ideal) x0 x3 (ix3 b q t) = val_main_v10 (F := Ideal) x0 (ix3 b q (cls (x3 (ix2 b t)))) := by
  unfold val_main_call0_v13
  rw [ref_gather]
  -- the clamped word is the class the word names
  show val_main_v10 (F := Ideal) x0 (ix3 b q (cls (val_main_call0_v5 (F := Ideal) x3 (ix3 b t (0 : Fin 1))))) = _
  rw [ref_label x3 hin b t]

/-- THE CLASS TERM of the reference at (b, q, t), on labels in the class range. -/
theorem ref_class (x0 : FVec Ideal S64x900x91 .f32) (x3 : IVec S64x300 32) (hin : InRange x3) (b : Fin 64) (q : Fin 900)
    (t : Fin 300) : val_main_v13 (F := Ideal) x0 x3 (ix3 b q t) = classCost x0 x3 b q t := by
  rw [val_main_v13_apply, val_main_v12_apply, ref_mask x3 hin b q t, select_one, ref_take x0 x3 hin b q t, ref_prob]
  rfl

end Cert.Matcher

end
-- ==== Proof.RefConcat.lean ====
/-
  Four columns stacked along the last axis, read at an index.

  The reference stacks four arrays of shape [B, Q, 1] (the corner coordinates of a box) into one of shape [B, Q, 4]
  along axis 2. Column k of the stack at (b, q) is the k-th array at (b, q, 0): the k-th piece's span along the
  axis is the single coordinate k, after the k unit extents of the pieces before it, and off the axis the index is
  unchanged.
-/
import proofs.«430452_j34591666602013_1_alg».proof.ReferenceIdeal
import proofs.«430452_j34591666602013_1_alg».proof.Proof.Gen.ReferenceIdeal
import Idealize.ShloMosaic.Lib.Pipeline.Value
import Idealize.ShloMosaic.Lib.ValueIdx

noncomputable section

namespace Cert.Matcher

open Cert.ReferenceIdeal Cert.ReferenceIdeal.Gen Idealize.ShloMosaic Idealize.ShloMosaic.ValueIdx

/-- Four [B, Q, 1] columns stacked along axis 2: column k at (b, q) is the k-th column at (b, q, 0). -/
theorem stack4_apply {α : Type} {B Q : Nat} (y0 y1 y2 y3 : (⟨3, ![B, Q, 1]⟩ : Shape).Idx → α)
    (h : Shape.Concatenates (([⟨(⟨3, ![B, Q, 1]⟩ : Shape), y0⟩, ⟨(⟨3, ![B, Q, 1]⟩ : Shape), y1⟩, ⟨(⟨3, ![B, Q, 1]⟩ : Shape), y2⟩, ⟨(⟨3, ![B, Q, 1]⟩ : Shape), y3⟩] : List ((s : Shape) × (s.Idx → α))).map (·.1)) (⟨3, ![B, Q, 4]⟩ : Shape) 2)
    (b : Fin B) (q : Fin Q) :
    concatenate (⟨3, ![B, Q, 4]⟩ : Shape) 2 [⟨(⟨3, ![B, Q, 1]⟩ : Shape), y0⟩, ⟨(⟨3, ![B, Q, 1]⟩ : Shape), y1⟩, ⟨(⟨3, ![B, Q, 1]⟩ : Shape), y2⟩, ⟨(⟨3, ![B, Q, 1]⟩ : Shape), y3⟩] h (ix3 b q (0 : Fin 4)) = y0 (ix3 b q (0 : Fin 1))
    ∧ concatenate (⟨3, ![B, Q, 4]⟩ : Shape) 2 [⟨(⟨3, ![B, Q, 1]⟩ : Shape), y0⟩, ⟨(⟨3, ![B, Q, 1]⟩ : Shape), y1⟩, ⟨(⟨3, ![B, Q, 1]⟩ : Shape), y2⟩, ⟨(⟨3, ![B, Q, 1]⟩ : Shape), y3⟩] h (ix3 b q (1 : Fin 4)) = y1 (ix3 b q (0 : Fin 1))
    ∧ concatenate (⟨3, ![B, Q, 4]⟩ : Shape) 2 [⟨(⟨3, ![B, Q, 1]⟩ : Shape), y0⟩, ⟨(⟨3, ![B, Q, 1]⟩ : Shape), y1⟩, ⟨(⟨3, ![B, Q, 1]⟩ : Shape), y2⟩, ⟨(⟨3, ![B, Q, 1]⟩ : Shape), y3⟩] h (ix3 b q (2 : Fin 4)) = y2 (ix3 b q (0 : Fin 1))
    ∧ concatenate (⟨3, ![B, Q, 4]⟩ : Shape) 2 [⟨(⟨3, ![B, Q, 1]⟩ : Shape), y0⟩, ⟨(⟨3, ![B, Q, 1]⟩ : Shape), y1⟩, ⟨(⟨3, ![B, Q, 1]⟩ : Shape), y2⟩, ⟨(⟨3, ![B, Q, 1]⟩ : Shape), y3⟩] h (ix3 b q (3 : Fin 4)) = y3 (ix3 b q (0 : Fin 1)) := by
  -- off the stacked axis the piece's index and the stack's index agree
  have off : ∀ (b : Fin B) (q : Fin Q) (k : Fin 4) (c : Fin 3), c.cast rfl ≠ (2 : Fin 3) →
      ((ix3 b q (0 : Fin 1) : (⟨3, ![B, Q, 1]⟩ : Shape).Idx) c).val = ((ix3 b q k : (⟨3, ![B, Q, 4]⟩ : Shape).Idx) (c.cast rfl)).val := by
    intro b q k c hc
    match c with
    | ⟨0, _⟩ => rfl
    | ⟨1, _⟩ => rfl
    | ⟨2, _⟩ => exact absurd (Fin.ext rfl) hc
  refine ⟨?_, ?_, ?_, ?_⟩
  · exact concatenate_apply_piece (2 : Fin 3) _ h (ix3 b q (0 : Fin 4)) 0 (show _ < 4 by omega) (⟨3, ![B, Q, 1]⟩ : Shape) y0 rfl rfl 0 rfl
      (ix3 b q (0 : Fin 1)) (off b q (0 : Fin 4)) rfl
  · exact concatenate_apply_piece (2 : Fin 3) _ h (ix3 b q (1 : Fin 4)) 1 (show _ < 4 by omega) (⟨3, ![B, Q, 1]⟩ : Shape) y1 rfl rfl 1 rfl
      (ix3 b q (0 : Fin 1)) (off b q (1 : Fin 4)) rfl
  · exact concatenate_apply_piece (2 : Fin 3) _ h (ix3 b q (2 : Fin 4)) 2 (show _ < 4 by omega) (⟨3, ![B, Q, 1]⟩ : Shape) y2 rfl rfl 2 rfl
      (ix3 b q (0 : Fin 1)) (off b q (2 : Fin 4)) rfl
  · exact concatenate_apply_piece (2 : Fin 3) _ h (ix3 b q (3 : Fin 4)) 3 (show _ < 4 by omega) (⟨3, ![B, Q, 1]⟩ : Shape) y3 rfl rfl 3 rfl
      (ix3 b q (0 : Fin 1)) (off b q (3 : Fin 4)) rfl

/-- The query boxes' four corner columns stacked: column k at (b, q) is the k-th column at (b, q, 0). -/
theorem ref_stack_q {α : Type} (y0 y1 y2 y3 : S64x900x1.Idx → α) (b : Fin 64) (q : Fin 900) :
    concatenate S64x900x4 2 [⟨S64x900x1, y0⟩, ⟨S64x900x1, y1⟩, ⟨S64x900x1, y2⟩, ⟨S64x900x1, y3⟩] concatenates_S64x900x1_S64x900x1_S64x900x1_S64x900x1_S64x900x4_d2 (ix3 b q (0 : Fin 4)) = y0 (ix3 b q (0 : Fin 1))
    ∧ concatenate S64x900x4 2 [⟨S64x900x1, y0⟩, ⟨S64x900x1, y1⟩, ⟨S64x900x1, y2⟩, ⟨S64x900x1, y3⟩] concatenates_S64x900x1_S64x900x1_S64x900x1_S64x900x1_S64x900x4_d2 (ix3 b q (1 : Fin 4)) = y1 (ix3 b q (0 : Fin 1))
    ∧ concatenate S64x900x4 2 [⟨S64x900x1, y0⟩, ⟨S64x900x1, y1⟩, ⟨S64x900x1, y2⟩, ⟨S64x900x1, y3⟩] concatenates_S64x900x1_S64x900x1_S64x900x1_S64x900x1_S64x900x4_d2 (ix3 b q (2 : Fin 4)) = y2 (ix3 b q (0 : Fin 1))
    ∧ concatenate S64x900x4 2 [⟨S64x900x1, y0⟩, ⟨S64x900x1, y1⟩, ⟨S64x900x1, y2⟩, ⟨S64x900x1, y3⟩] concatenates_S64x900x1_S64x900x1_S64x900x1_S64x900x1_S64x900x4_d2 (ix3 b q (3 : Fin 4)) = y3 (ix3 b q (0 : Fin 1)) :=
  stack4_apply y0 y1 y2 y3 concatenates_S64x900x1_S64x900x1_S64x900x1_S64x900x1_S64x900x4_d2 b q

/-- The target boxes' four corner columns stacked: column k at (b, t) is the k-th column at (b, t, 0). -/
theorem ref_stack_t {α : Type} (y0 y1 y2 y3 : S64x300x1.Idx → α) (b : Fin 64) (t : Fin 300) :
    concatenate S64x300x4 2 [⟨S64x300x1, y0⟩, ⟨S64x300x1, y1⟩, ⟨S64x300x1, y2⟩, ⟨S64x300x1, y3⟩] concatenates_S64x300x1_S64x300x1_S64x300x1_S64x300x1_S64x300x4_d2 (ix3 b t (0 : Fin 4)) = y0 (ix3 b t (0 : Fin 1))
    ∧ concatenate S64x300x4 2 [⟨S64x300x1, y0⟩, ⟨S64x300x1, y1⟩, ⟨S64x300x1, y2⟩, ⟨S64x300x1, y3⟩] concatenates_S64x300x1_S64x300x1_S64x300x1_S64x300x1_S64x300x4_d2 (ix3 b t (1 : Fin 4)) = y1 (ix3 b t (0 : Fin 1))
    ∧ concatenate S64x300x4 2 [⟨S64x300x1, y0⟩, ⟨S64x300x1, y1⟩, ⟨S64x300x1, y2⟩, ⟨S64x300x1, y3⟩] concatenates_S64x300x1_S64x300x1_S64x300x1_S64x300x1_S64x300x4_d2 (ix3 b t (2 : Fin 4)) = y2 (ix3 b t (0 : Fin 1))
    ∧ concatenate S64x300x4 2 [⟨S64x300x1, y0⟩, ⟨S64x300x1, y1⟩, ⟨S64x300x1, y2⟩, ⟨S64x300x1, y3⟩] concatenates_S64x300x1_S64x300x1_S64x300x1_S64x300x1_S64x300x4_d2 (ix3 b t (3 : Fin 4)) = y3 (ix3 b t (0 : Fin 1)) :=
  stack4_apply y0 y1 y2 y3 concatenates_S64x300x1_S64x300x1_S64x300x1_S64x300x1_S64x300x4_d2 b t

end Cert.Matcher

end
-- ==== Proof.RefBoxes.lean ====
/-
  The reference's box terms read at an index: the L1 distance of a query box and a target box, and the corner
  coordinates of the boxes.

  The L1 term at (b, q, t) is the sum over the four box coordinates k of |x1(b, q, k) − x2(b, t, k)|, the reference
  having laid both box arrays over [64, 900, 300, 4]. The corners: from a box (cx, cy, w, h) the reference takes the
  columns cx, cy, w, h apart, forms cx − ½·w, cy − ½·h, cx + ½·w, cy + ½·h and stacks them as four columns.
-/
import proofs.«430452_j34591666602013_1_alg».proof.Proof.RefRead
import proofs.«430452_j34591666602013_1_alg».proof.Proof.RefConcat
import proofs.«430452_j34591666602013_1_alg».proof.Proof.Spec
import Idealize.ShloMosaic.Lib.ValueIdx
import Idealize.ShloMosaic.PureOps.Ideal.Laws

noncomputable section

open scoped BigOperators

namespace Cert.Matcher

open Cert.ReferenceIdeal Cert.ReferenceIdeal.Gen Cert.ReferenceIdeal.ReadP Idealize.ShloMosaic Idealize.ShloMosaic.ValueIdx

/-! ## The L1 term -/

/-- One coordinate's absolute difference, read from the two box arrays laid over [64, 900, 300, 4]. -/
theorem ref_absdiff (x1 : FVec Ideal S64x900x4 .f32) (x2 : FVec Ideal S64x300x4 .f32) (b : Fin 64) (q : Fin 900)
    (t : Fin 300) (k : Fin 4) :
    val_main_v19 (F := Ideal) x1 x2 (ix4 b q t k) = eabs (x1 (ix3 b q k) - x2 (ix3 b t k)) := by
  have e1 : idx_main_v14 (idx_main_v16 (ix4 b q t k)) = ix3 b q k := by
    funext a; match a with | ⟨0, _⟩ => rfl | ⟨1, _⟩ => rfl | ⟨2, _⟩ => rfl
  have e2 : idx_main_v15 (idx_main_v17 (ix4 b q t k)) = ix3 b t k := by
    funext a; match a with | ⟨0, _⟩ => rfl | ⟨1, _⟩ => rfl | ⟨2, _⟩ => rfl
  rw [val_main_v19_apply, val_main_v18_apply, val_main_v16_apply, val_main_v17_apply, val_main_v14_apply,
    val_main_v15_apply, e1, e2]
  rfl

/-- The reference's L1 term at (b, q, t): the four absolute differences summed from zero. -/
theorem ref_l1 (x1 : FVec Ideal S64x900x4 .f32) (x2 : FVec Ideal S64x300x4 .f32) (b : Fin 64) (q : Fin 900) (t : Fin 300) :
    val_main_v20 (F := Ideal) x1 x2 (ix3 b q t) = l1Cost x1 x2 b q t := by
  have e : ∀ k : Fin 4, idx_main_v20 (ix3 b q t) k = ix4 b q t k := fun k => by
    funext a; match a with | ⟨0, _⟩ => rfl | ⟨1, _⟩ => rfl | ⟨2, _⟩ => rfl | ⟨3, _⟩ => rfl
  rw [val_main_v20_apply, val_main_cst_2_apply, Fin.sum_univ_four, e, e, e, e, ref_absdiff, ref_absdiff, ref_absdiff,
    ref_absdiff, Ideal.ofBits_def, Ideal.ofBits_zero_f32, zero_add]
  rfl

/-! ## The columns of a box array -/

/-- Column 0 of the query boxes, sliced out and flattened to [64, 900]: at (b, q) it is the box's coordinate 0. -/
theorem ref_col_q0 (x1 : FVec Ideal S64x900x4 .f32) (b : Fin 64) (q : Fin 900) :
    val_main_v22 (F := Ideal) x1 (ix2 b q) = x1 (ix3 b q (0 : Fin 4)) := by
  have hb := b.isLt
  have hq := q.isLt
  have e : idx_main_v21 (idx_main_v22 (ix2 b q)) = ix3 b q (0 : Fin 4) := by
    funext a
    refine Fin.ext ?_
    match a with
    | ⟨0, _⟩ => show (b.val * 900 + q.val) / 900 = b.val; omega
    | ⟨1, _⟩ => show (b.val * 900 + q.val) / 1 % 900 = q.val; omega
    | ⟨2, _⟩ => rfl
  rw [val_main_v22_apply, val_main_v21_apply, e]

/-- Column 1 of the query boxes, sliced out and flattened to [64, 900]: at (b, q) it is the box's coordinate 1. -/
theorem ref_col_q1 (x1 : FVec Ideal S64x900x4 .f32) (b : Fin 64) (q : Fin 900) :
    val_main_v24 (F := Ideal) x1 (ix2 b q) = x1 (ix3 b q (1 : Fin 4)) := by
  have hb := b.isLt
  have hq := q.isLt
  have e : idx_main_v23 (idx_main_v24 (ix2 b q)) = ix3 b q (1 : Fin 4) := by
    funext a
    refine Fin.ext ?_
    match a with
    | ⟨0, _⟩ => show (b.val * 900 + q.val) / 900 = b.val; omega
    | ⟨1, _⟩ => show (b.val * 900 + q.val) / 1 % 900 = q.val; omega
    | ⟨2, _⟩ => rfl
  rw [val_main_v24_apply, val_main_v23_apply, e]

/-- Column 2 of the query boxes, sliced out and flattened to [64, 900]: at (b, q) it is the box's coordinate 2. -/
theorem ref_col_q2 (x1 : FVec Ideal S64x900x4 .f32) (b : Fin 64) (q : Fin 900) :
    val_main_v26 (F := Ideal) x1 (ix2 b q) = x1 (ix3 b q (2 : Fin 4)) := by
  have hb := b.isLt
  have hq := q.isLt
  have e : idx_main_v25 (idx_main_v26 (ix2 b q)) = ix3 b q (2 : Fin 4) := by
    funext a
    refine Fin.ext ?_
    match a with
    | ⟨0, _⟩ => show (b.val * 900 + q.val) / 900 = b.val; omega
    | ⟨1, _⟩ => show (b.val * 900 + q.val) / 1 % 900 = q.val; omega
    | ⟨2, _⟩ => rfl
  rw [val_main_v26_apply, val_main_v25_apply, e]

/-- Column 3 of the query boxes, sliced out and flattened to [64, 900]: at (b, q) it is the box's coordinate 3. -/
theorem ref_col_q3 (x1 : FVec Ideal S64x900x4 .f32) (b : Fin 64) (q : Fin 900) :
    val_main_v28 (F := Ideal) x1 (ix2 b q) = x1 (ix3 b q (3 : Fin 4)) := by
  have hb := b.isLt
  have hq := q.isLt
  have e : idx_main_v27 (idx_main_v28 (ix2 b q)) = ix3 b q (3 : Fin 4) := by
    funext a
    refine Fin.ext ?_
    match a with
    | ⟨0, _⟩ => show (b.val * 900 + q.val) / 900 = b.val; omega
    | ⟨1, _⟩ => show (b.val * 900 + q.val) / 1 % 900 = q.val; omega
    | ⟨2, _⟩ => rfl
  rw [val_main_v28_apply, val_main_v27_apply, e]

/-- Column 0 of the target boxes, sliced out and flattened to [64, 300]: at (b, t) it is the box's coordinate 0. -/
theorem ref_col_t0 (x2 : FVec Ideal S64x300x4 .f32) (b : Fin 64) (t : Fin 300) :
    val_main_v47 (F := Ideal) x2 (ix2 b t) = x2 (ix3 b t (0 : Fin 4)) := by
  have hb := b.isLt
  have ht := t.isLt
  have e : idx_main_v46 (idx_main_v47 (ix2 b t)) = ix3 b t (0 : Fin 4) := by
    funext a
    refine Fin.ext ?_
    match a with
    | ⟨0, _⟩ => show (b.val * 300 + t.val) / 300 = b.val; omega
    | ⟨1, _⟩ => show (b.val * 300 + t.val) / 1 % 300 = t.val; omega
    | ⟨2, _⟩ => rfl
  rw [val_main_v47_apply, val_main_v46_apply, e]

/-- Column 1 of the target boxes, sliced out and flattened to [64, 300]: at (b, t) it is the box's coordinate 1. -/
theorem ref_col_t1 (x2 : FVec Ideal S64x300x4 .f32) (b : Fin 64) (t : Fin 300) :
    val_main_v49 (F := Ideal) x2 (ix2 b t) = x2 (ix3 b t (1 : Fin 4)) := by
  have hb := b.isLt
  have ht := t.isLt
  have e : idx_main_v48 (idx_main_v49 (ix2 b t)) = ix3 b t (1 : Fin 4) := by
    funext a
    refine Fin.ext ?_
    match a with
    | ⟨0, _⟩ => show (b.val * 300 + t.val) / 300 = b.val; omega
    | ⟨1, _⟩ => show (b.val * 300 + t.val) / 1 % 300 = t.val; omega
    | ⟨2, _⟩ => rfl
  rw [val_main_v49_apply, val_main_v48_apply, e]

/-- Column 2 of the target boxes, sliced out and flattened to [64, 300]: at (b, t) it is the box's coordinate 2. -/
theorem ref_col_t2 (x2 : FVec Ideal S64x300x4 .f32) (b : Fin 64) (t : Fin 300) :
    val_main_v51 (F := Ideal) x2 (ix2 b t) = x2 (ix3 b t (2 : Fin 4)) := by
  have hb := b.isLt
  have ht := t.isLt
  have e : idx_main_v50 (idx_main_v51 (ix2 b t)) = ix3 b t (2 : Fin 4) := by
    funext a
    refine Fin.ext ?_
    match a with
    | ⟨0, _⟩ => show (b.val * 300 + t.val) / 300 = b.val; omega
    | ⟨1, _⟩ => show (b.val * 300 + t.val) / 1 % 300 = t.val; omega
    | ⟨2, _⟩ => rfl
  rw [val_main_v51_apply, val_main_v50_apply, e]

/-- Column 3 of the target boxes, sliced out and flattened to [64, 300]: at (b, t) it is the box's coordinate 3. -/
theorem ref_col_t3 (x2 : FVec Ideal S64x300x4 .f32) (b : Fin 64) (t : Fin 300) :
    val_main_v53 (F := Ideal) x2 (ix2 b t) = x2 (ix3 b t (3 : Fin 4)) := by
  have hb := b.isLt
  have ht := t.isLt
  have e : idx_main_v52 (idx_main_v53 (ix2 b t)) = ix3 b t (3 : Fin 4) := by
    funext a
    refine Fin.ext ?_
    match a with
    | ⟨0, _⟩ => show (b.val * 300 + t.val) / 300 = b.val; omega
    | ⟨1, _⟩ => show (b.val * 300 + t.val) / 1 % 300 = t.val; omega
    | ⟨2, _⟩ => rfl
  rw [val_main_v53_apply, val_main_v52_apply, e]

/-! ## The factor ½ -/

/-- The splat of the ½ word over the query boxes reads ½ everywhere. -/
theorem ref_half_v29 (i : S64x900.Idx) : val_main_v29 (F := Ideal) i = half := by
  rw [val_main_v29_apply, val_main_cst_3_apply]
  rfl

/-- The splat of the ½ word over the query boxes reads ½ everywhere. -/
theorem ref_half_v32 (i : S64x900.Idx) : val_main_v32 (F := Ideal) i = half := by
  rw [val_main_v32_apply, val_main_cst_4_apply]
  rfl

/-- The splat of the ½ word over the query boxes reads ½ everywhere. -/
theorem ref_half_v35 (i : S64x900.Idx) : val_main_v35 (F := Ideal) i = half := by
  rw [val_main_v35_apply, val_main_cst_5_apply]
  rfl

/-- The splat of the ½ word over the query boxes reads ½ everywhere. -/
theorem ref_half_v38 (i : S64x900.Idx) : val_main_v38 (F := Ideal) i = half := by
  rw [val_main_v38_apply, val_main_cst_6_apply]
  rfl

/-- The splat of the ½ word over the target boxes reads ½ everywhere. -/
theorem ref_half_v54 (i : S64x300.Idx) : val_main_v54 (F := Ideal) i = half := by
  rw [val_main_v54_apply, val_main_cst_7_apply]
  rfl

/-- The splat of the ½ word over the target boxes reads ½ everywhere. -/
theorem ref_half_v57 (i : S64x300.Idx) : val_main_v57 (F := Ideal) i = half := by
  rw [val_main_v57_apply, val_main_cst_8_apply]
  rfl

/-- The splat of the ½ word over the target boxes reads ½ everywhere. -/
theorem ref_half_v60 (i : S64x300.Idx) : val_main_v60 (F := Ideal) i = half := by
  rw [val_main_v60_apply, val_main_cst_9_apply]
  rfl

/-- The splat of the ½ word over the target boxes reads ½ everywhere. -/
theorem ref_half_v63 (i : S64x300.Idx) : val_main_v63 (F := Ideal) i = half := by
  rw [val_main_v63_apply, val_main_cst_10_apply]
  rfl

/-! ## The corners -/

/-- The four corner coordinates of the query boxes as the reference stacks them: the low corner is the centre minus half the
    extent, the high corner the centre plus half the extent, on each of the two axes. -/
theorem ref_corners_q (x1 : FVec Ideal S64x900x4 .f32) (b : Fin 64) (q : Fin 900) :
    val_main_v45 (F := Ideal) x1 (ix3 b q (0 : Fin 4)) = lo (x1 (ix3 b q 0)) (x1 (ix3 b q 2))
    ∧ val_main_v45 (F := Ideal) x1 (ix3 b q (1 : Fin 4)) = lo (x1 (ix3 b q 1)) (x1 (ix3 b q 3))
    ∧ val_main_v45 (F := Ideal) x1 (ix3 b q (2 : Fin 4)) = hi (x1 (ix3 b q 0)) (x1 (ix3 b q 2))
    ∧ val_main_v45 (F := Ideal) x1 (ix3 b q (3 : Fin 4)) = hi (x1 (ix3 b q 1)) (x1 (ix3 b q 3)) := by
  obtain ⟨h0, h1, h2, h3⟩ := ref_stack_q (val_main_v41 (F := Ideal) x1) (val_main_v42 (F := Ideal) x1)
    (val_main_v43 (F := Ideal) x1) (val_main_v44 (F := Ideal) x1) b q
  have e0 : idx_main_v41 (ix3 b q (0 : Fin 1)) = ix2 b q := by
    funext a; match a with | ⟨0, _⟩ => rfl | ⟨1, _⟩ => rfl
  have e1 : idx_main_v42 (ix3 b q (0 : Fin 1)) = ix2 b q := by
    funext a; match a with | ⟨0, _⟩ => rfl | ⟨1, _⟩ => rfl
  have e2 : idx_main_v43 (ix3 b q (0 : Fin 1)) = ix2 b q := by
    funext a; match a with | ⟨0, _⟩ => rfl | ⟨1, _⟩ => rfl
  have e3 : idx_main_v44 (ix3 b q (0 : Fin 1)) = ix2 b q := by
    funext a; match a with | ⟨0, _⟩ => rfl | ⟨1, _⟩ => rfl
  unfold val_main_v45
  refine ⟨h0.trans ?_, h1.trans ?_, h2.trans ?_, h3.trans ?_⟩
  · rw [val_main_v41_apply, e0, val_main_v31_apply, val_main_v30_apply, ref_col_q0, ref_col_q2, ref_half_v29]
    rfl
  · rw [val_main_v42_apply, e1, val_main_v34_apply, val_main_v33_apply, ref_col_q1, ref_col_q3, ref_half_v32]
    rfl
  · rw [val_main_v43_apply, e2, val_main_v37_apply, val_main_v36_apply, ref_col_q0, ref_col_q2, ref_half_v35]
    rfl
  · rw [val_main_v44_apply, e3, val_main_v40_apply, val_main_v39_apply, ref_col_q1, ref_col_q3, ref_half_v38]
    rfl

/-- The four corner coordinates of the target boxes as the reference stacks them: the low corner is the centre minus half the
    extent, the high corner the centre plus half the extent, on each of the two axes. -/
theorem ref_corners_t (x2 : FVec Ideal S64x300x4 .f32) (b : Fin 64) (t : Fin 300) :
    val_main_v70 (F := Ideal) x2 (ix3 b t (0 : Fin 4)) = lo (x2 (ix3 b t 0)) (x2 (ix3 b t 2))
    ∧ val_main_v70 (F := Ideal) x2 (ix3 b t (1 : Fin 4)) = lo (x2 (ix3 b t 1)) (x2 (ix3 b t 3))
    ∧ val_main_v70 (F := Ideal) x2 (ix3 b t (2 : Fin 4)) = hi (x2 (ix3 b t 0)) (x2 (ix3 b t 2))
    ∧ val_main_v70 (F := Ideal) x2 (ix3 b t (3 : Fin 4)) = hi (x2 (ix3 b t 1)) (x2 (ix3 b t 3)) := by
  obtain ⟨h0, h1, h2, h3⟩ := ref_stack_t (val_main_v66 (F := Ideal) x2) (val_main_v67 (F := Ideal) x2)
    (val_main_v68 (F := Ideal) x2) (val_main_v69 (F := Ideal) x2) b t
  have e0 : idx_main_v66 (ix3 b t (0 : Fin 1)) = ix2 b t := by
    funext a; match a with | ⟨0, _⟩ => rfl | ⟨1, _⟩ => rfl
  have e1 : idx_main_v67 (ix3 b t (0 : Fin 1)) = ix2 b t := by
    funext a; match a with | ⟨0, _⟩ => rfl | ⟨1, _⟩ => rfl
  have e2 : idx_main_v68 (ix3 b t (0 : Fin 1)) = ix2 b t := by
    funext a; match a with | ⟨0, _⟩ => rfl | ⟨1, _⟩ => rfl
  have e3 : idx_main_v69 (ix3 b t (0 : Fin 1)) = ix2 b t := by
    funext a; match a with | ⟨0, _⟩ => rfl | ⟨1, _⟩ => rfl
  unfold val_main_v70
  refine ⟨h0.trans ?_, h1.trans ?_, h2.trans ?_, h3.trans ?_⟩
  · rw [val_main_v66_apply, e0, val_main_v56_apply, val_main_v55_apply, ref_col_t0, ref_col_t2, ref_half_v54]
    rfl
  · rw [val_main_v67_apply, e1, val_main_v59_apply, val_main_v58_apply, ref_col_t1, ref_col_t3, ref_half_v57]
    rfl
  · rw [val_main_v68_apply, e2, val_main_v62_apply, val_main_v61_apply, ref_col_t0, ref_col_t2, ref_half_v60]
    rfl
  · rw [val_main_v69_apply, e3, val_main_v65_apply, val_main_v64_apply, ref_col_t1, ref_col_t3, ref_half_v63]
    rfl

end Cert.Matcher

end
-- ==== Proof.RefGiou.lean ====
/-
  The reference's generalised IoU, read at one (batch, query, target) triple.

  The reference keeps each box as its four corner coordinates (x₁, y₁, x₂, y₂), stacked along a last axis of extent 4.
  From the corners X of query `q` and U of target `t` in batch `b`:
    the areas        (x₂ − x₁)⁺ · (y₂ − y₁)⁺ of each box,
    the intersection (min x₂ − max x₁)⁺ · (min y₂ − max y₁)⁺,
    the union        area + area − intersection,
    the hull         (max x₂ − min x₁)⁺ · (max y₂ − min y₁)⁺,
  with v⁺ = max 0 v, and the result −(intersection / (union + ε) − (hull − union) / (hull + ε)).
  Every stage below is one of these quantities at explicit coordinates; the layout stages between them (slices, unit-axis
  reshapes, broadcasts over the missing axis) only move coordinates.
-/
import proofs.«430452_j34591666602013_1_alg».proof.Proof.RefRead
import proofs.«430452_j34591666602013_1_alg».proof.Proof.Spec

noncomputable section

namespace Cert.Matcher

open Cert.ReferenceIdeal Cert.ReferenceIdeal.Gen Cert.ReferenceIdeal.ReadP Idealize.ShloMosaic Idealize.ShloMosaic.ValueIdx

/-! ## The formula over corners -/

/-- The generalised IoU of two boxes given by their corners `(X1, Y1, X2, Y2)` and `(U1, V1, U2, V2)`. -/
def giouC (X1 Y1 X2 Y2 U1 V1 U2 V2 : EReal) : EReal :=
  Ideal.div (side (max X1 U1) (min X2 U2) * side (max Y1 V1) (min Y2 V2))
      (side X1 X2 * side Y1 Y2 + side U1 U2 * side V1 V2
        - side (max X1 U1) (min X2 U2) * side (max Y1 V1) (min Y2 V2) + eps)
    - Ideal.div
        (side (min X1 U1) (max X2 U2) * side (min Y1 V1) (max Y2 V2)
          - (side X1 X2 * side Y1 Y2 + side U1 U2 * side V1 V2
              - side (max X1 U1) (min X2 U2) * side (max Y1 V1) (min Y2 V2)))
        (side (min X1 U1) (max X2 U2) * side (min Y1 V1) (max Y2 V2) + eps)

/-- The specification's generalised IoU of two centre-and-extent boxes is the corner formula at their corners. -/
theorem giouOf_eq_giouC (bx by' bw bh tx ty tw th : EReal) :
    giouOf bx by' bw bh tx ty tw th
      = giouC (lo bx bw) (lo by' bh) (hi bx bw) (hi by' bh) (lo tx tw) (lo ty th) (hi tx tw) (hi ty th) := rfl

/-- The integer zero the reference's clip converts is the real zero. -/
theorem clip_zero : FloatOps.sitofp (F := Ideal) .f32 (0#32 : BitVec 32) = (0 : EReal) := by
  show (((0#32 : BitVec 32).toInt : ℝ) : EReal) = 0
  simp

variable (x1 : FVec Ideal S64x900x4 .f32) (x2 : FVec Ideal S64x300x4 .f32)

/-- Corner `k` of query `q`'s box in batch `b`, as the reference stacks it. -/
abbrev cornerQ (b : Fin 64) (q : Fin 900) (k : Fin 4) : EReal := val_main_v45 (F := Ideal) x1 (ix3 b q k)
/-- Corner `k` of target `t`'s box in batch `b`. -/
abbrev cornerT (b : Fin 64) (t : Fin 300) (k : Fin 4) : EReal := val_main_v70 (F := Ideal) x2 (ix3 b t k)

/-! ## The query boxes' areas -/

/-- The column the reference slices out for x₂ of the query boxes is corner 2. -/
theorem q_side_2 (b : Fin 64) (q : Fin 900) :
    val_main_v72 (F := Ideal) x1 (ix2 b q) = cornerQ x1 b q 2 := by
  have hb := b.isLt; have hq := q.isLt
  rw [val_main_v72_apply, val_main_v71_apply]
  exact congrArg _ (by
    funext a; refine Fin.ext ?_
    match a with
    | ⟨0, _⟩ => first | rfl | (simp only [idx_main_v72, idx_main_v71, ix2, ix3, ix4]; omega)
    | ⟨1, _⟩ => first | rfl | (simp only [idx_main_v72, idx_main_v71, ix2, ix3, ix4]; omega)
    | ⟨2, _⟩ => first | rfl | (simp only [idx_main_v72, idx_main_v71, ix2, ix3, ix4]; omega))

/-- The column the reference slices out for x₁ of the query boxes is corner 0. -/
theorem q_side_0 (b : Fin 64) (q : Fin 900) :
    val_main_v74 (F := Ideal) x1 (ix2 b q) = cornerQ x1 b q 0 := by
  have hb := b.isLt; have hq := q.isLt
  rw [val_main_v74_apply, val_main_v73_apply]
  exact congrArg _ (by
    funext a; refine Fin.ext ?_
    match a with
    | ⟨0, _⟩ => first | rfl | (simp only [idx_main_v74, idx_main_v73, ix2, ix3, ix4]; omega)
    | ⟨1, _⟩ => first | rfl | (simp only [idx_main_v74, idx_main_v73, ix2, ix3, ix4]; omega)
    | ⟨2, _⟩ => first | rfl | (simp only [idx_main_v74, idx_main_v73, ix2, ix3, ix4]; omega))

/-- The column the reference slices out for y₂ of the query boxes is corner 3. -/
theorem q_side_3 (b : Fin 64) (q : Fin 900) :
    val_main_v78 (F := Ideal) x1 (ix2 b q) = cornerQ x1 b q 3 := by
  have hb := b.isLt; have hq := q.isLt
  rw [val_main_v78_apply, val_main_v77_apply]
  exact congrArg _ (by
    funext a; refine Fin.ext ?_
    match a with
    | ⟨0, _⟩ => first | rfl | (simp only [idx_main_v78, idx_main_v77, ix2, ix3, ix4]; omega)
    | ⟨1, _⟩ => first | rfl | (simp only [idx_main_v78, idx_main_v77, ix2, ix3, ix4]; omega)
    | ⟨2, _⟩ => first | rfl | (simp only [idx_main_v78, idx_main_v77, ix2, ix3, ix4]; omega))

/-- The column the reference slices out for y₁ of the query boxes is corner 1. -/
theorem q_side_1 (b : Fin 64) (q : Fin 900) :
    val_main_v80 (F := Ideal) x1 (ix2 b q) = cornerQ x1 b q 1 := by
  have hb := b.isLt; have hq := q.isLt
  rw [val_main_v80_apply, val_main_v79_apply]
  exact congrArg _ (by
    funext a; refine Fin.ext ?_
    match a with
    | ⟨0, _⟩ => first | rfl | (simp only [idx_main_v80, idx_main_v79, ix2, ix3, ix4]; omega)
    | ⟨1, _⟩ => first | rfl | (simp only [idx_main_v80, idx_main_v79, ix2, ix3, ix4]; omega)
    | ⟨2, _⟩ => first | rfl | (simp only [idx_main_v80, idx_main_v79, ix2, ix3, ix4]; omega))

/-- The area of query `q`'s box: the two clipped extents multiplied. -/
theorem q_area (b : Fin 64) (q : Fin 900) :
    val_main_v83 (F := Ideal) x1 (ix2 b q)
      = max 0 (cornerQ x1 b q 2 - cornerQ x1 b q 0) * max 0 (cornerQ x1 b q 3 - cornerQ x1 b q 1) := by
  rw [val_main_v83_apply, val_main_v76_apply, val_main_v82_apply, val_main_v75_apply, val_main_v81_apply, val_main_call1_v1_apply, val_main_call1_v0_apply, val_main_c_apply, val_main_call2_v1_apply, val_main_call2_v0_apply, val_main_c_11_apply, q_side_2, q_side_0, q_side_3, q_side_1, clip_zero]
  rfl

/-! ## The target boxes' areas -/

/-- The column the reference slices out for x₂ of the target boxes is corner 2. -/
theorem t_side_2 (b : Fin 64) (t : Fin 300) :
    val_main_v85 (F := Ideal) x2 (ix2 b t) = cornerT x2 b t 2 := by
  have hb := b.isLt; have ht := t.isLt
  rw [val_main_v85_apply, val_main_v84_apply]
  exact congrArg _ (by
    funext a; refine Fin.ext ?_
    match a with
    | ⟨0, _⟩ => first | rfl | (simp only [idx_main_v85, idx_main_v84, ix2, ix3, ix4]; omega)
    | ⟨1, _⟩ => first | rfl | (simp only [idx_main_v85, idx_main_v84, ix2, ix3, ix4]; omega)
    | ⟨2, _⟩ => first | rfl | (simp only [idx_main_v85, idx_main_v84, ix2, ix3, ix4]; omega))

/-- The column the reference slices out for x₁ of the target boxes is corner 0. -/
theorem t_side_0 (b : Fin 64) (t : Fin 300) :
    val_main_v87 (F := Ideal) x2 (ix2 b t) = cornerT x2 b t 0 := by
  have hb := b.isLt; have ht := t.isLt
  rw [val_main_v87_apply, val_main_v86_apply]
  exact congrArg _ (by
    funext a; refine Fin.ext ?_
    match a with
    | ⟨0, _⟩ => first | rfl | (simp only [idx_main_v87, idx_main_v86, ix2, ix3, ix4]; omega)
    | ⟨1, _⟩ => first | rfl | (simp only [idx_main_v87, idx_main_v86, ix2, ix3, ix4]; omega)
    | ⟨2, _⟩ => first | rfl | (simp only [idx_main_v87, idx_main_v86, ix2, ix3, ix4]; omega))

/-- The column the reference slices out for y₂ of the target boxes is corner 3. -/
theorem t_side_3 (b : Fin 64) (t : Fin 300) :
    val_main_v91 (F := Ideal) x2 (ix2 b t) = cornerT x2 b t 3 := by
  have hb := b.isLt; have ht := t.isLt
  rw [val_main_v91_apply, val_main_v90_apply]
  exact congrArg _ (by
    funext a; refine Fin.ext ?_
    match a with
    | ⟨0, _⟩ => first | rfl | (simp only [idx_main_v91, idx_main_v90, ix2, ix3, ix4]; omega)
    | ⟨1, _⟩ => first | rfl | (simp only [idx_main_v91, idx_main_v90, ix2, ix3, ix4]; omega)
    | ⟨2, _⟩ => first | rfl | (simp only [idx_main_v91, idx_main_v90, ix2, ix3, ix4]; omega))

/-- The column the reference slices out for y₁ of the target boxes is corner 1. -/
theorem t_side_1 (b : Fin 64) (t : Fin 300) :
    val_main_v93 (F := Ideal) x2 (ix2 b t) = cornerT x2 b t 1 := by
  have hb := b.isLt; have ht := t.isLt
  rw [val_main_v93_apply, val_main_v92_apply]
  exact congrArg _ (by
    funext a; refine Fin.ext ?_
    match a with
    | ⟨0, _⟩ => first | rfl | (simp only [idx_main_v93, idx_main_v92, ix2, ix3, ix4]; omega)
    | ⟨1, _⟩ => first | rfl | (simp only [idx_main_v93, idx_main_v92, ix2, ix3, ix4]; omega)
    | ⟨2, _⟩ => first | rfl | (simp only [idx_main_v93, idx_main_v92, ix2, ix3, ix4]; omega))

/-- The area of target `t`'s box. -/
theorem t_area (b : Fin 64) (t : Fin 300) :
    val_main_v96 (F := Ideal) x2 (ix2 b t)
      = max 0 (cornerT x2 b t 2 - cornerT x2 b t 0) * max 0 (cornerT x2 b t 3 - cornerT x2 b t 1) := by
  rw [val_main_v96_apply, val_main_v89_apply, val_main_v95_apply, val_main_v88_apply, val_main_v94_apply, val_main_call3_v1_apply, val_main_call3_v0_apply, val_main_c_12_apply, val_main_call4_v1_apply, val_main_call4_v0_apply, val_main_c_13_apply, t_side_2, t_side_0, t_side_3, t_side_1, clip_zero]
  rfl

/-! ## The pairwise corners: a query corner and a target corner laid over the (query, target) grid -/

/-- Over the grid, coordinate 0 of the low corners of the query boxes is corner 0. -/
theorem pair_101_0 (b : Fin 64) (q : Fin 900) (t : Fin 300) :
    val_main_v101 (F := Ideal) x1 (ix4 b q t (0 : Fin 2)) = cornerQ x1 b q 0 := by
  have hb := b.isLt; have hq := q.isLt; have ht := t.isLt
  rw [val_main_v101_apply, val_main_v98_apply, val_main_v97_apply]
  exact congrArg _ (by
    funext a; refine Fin.ext ?_
    match a with
    | ⟨0, _⟩ => first | rfl | (simp only [idx_main_v101, idx_main_v98, idx_main_v97, ix2, ix3, ix4]; omega)
    | ⟨1, _⟩ => first | rfl | (simp only [idx_main_v101, idx_main_v98, idx_main_v97, ix2, ix3, ix4]; omega)
    | ⟨2, _⟩ => first | rfl | (simp only [idx_main_v101, idx_main_v98, idx_main_v97, ix2, ix3, ix4]; omega))

/-- Over the grid, coordinate 1 of the low corners of the query boxes is corner 1. -/
theorem pair_101_1 (b : Fin 64) (q : Fin 900) (t : Fin 300) :
    val_main_v101 (F := Ideal) x1 (ix4 b q t (1 : Fin 2)) = cornerQ x1 b q 1 := by
  have hb := b.isLt; have hq := q.isLt; have ht := t.isLt
  rw [val_main_v101_apply, val_main_v98_apply, val_main_v97_apply]
  exact congrArg _ (by
    funext a; refine Fin.ext ?_
    match a with
    | ⟨0, _⟩ => first | rfl | (simp only [idx_main_v101, idx_main_v98, idx_main_v97, ix2, ix3, ix4]; omega)
    | ⟨1, _⟩ => first | rfl | (simp only [idx_main_v101, idx_main_v98, idx_main_v97, ix2, ix3, ix4]; omega)
    | ⟨2, _⟩ => first | rfl | (simp only [idx_main_v101, idx_main_v98, idx_main_v97, ix2, ix3, ix4]; omega))

/-- Over the grid, coordinate 0 of the low corners of the target boxes is corner 0. -/
theorem pair_102_0 (b : Fin 64) (q : Fin 900) (t : Fin 300) :
    val_main_v102 (F := Ideal) x2 (ix4 b q t (0 : Fin 2)) = cornerT x2 b t 0 := by
  have hb := b.isLt; have hq := q.isLt; have ht := t.isLt
  rw [val_main_v102_apply, val_main_v100_apply, val_main_v99_apply]
  exact congrArg _ (by
    funext a; refine Fin.ext ?_
    match a with
    | ⟨0, _⟩ => first | rfl | (simp only [idx_main_v102, idx_main_v100, idx_main_v99, ix2, ix3, ix4]; omega)
    | ⟨1, _⟩ => first | rfl | (simp only [idx_main_v102, idx_main_v100, idx_main_v99, ix2, ix3, ix4]; omega)
    | ⟨2, _⟩ => first | rfl | (simp only [idx_main_v102, idx_main_v100, idx_main_v99, ix2, ix3, ix4]; omega))

/-- Over the grid, coordinate 1 of the low corners of the target boxes is corner 1. -/
theorem pair_102_1 (b : Fin 64) (q : Fin 900) (t : Fin 300) :
    val_main_v102 (F := Ideal) x2 (ix4 b q t (1 : Fin 2)) = cornerT x2 b t 1 := by
  have hb := b.isLt; have hq := q.isLt; have ht := t.isLt
  rw [val_main_v102_apply, val_main_v100_apply, val_main_v99_apply]
  exact congrArg _ (by
    funext a; refine Fin.ext ?_
    match a with
    | ⟨0, _⟩ => first | rfl | (simp only [idx_main_v102, idx_main_v100, idx_main_v99, ix2, ix3, ix4]; omega)
    | ⟨1, _⟩ => first | rfl | (simp only [idx_main_v102, idx_main_v100, idx_main_v99, ix2, ix3, ix4]; omega)
    | ⟨2, _⟩ => first | rfl | (simp only [idx_main_v102, idx_main_v100, idx_main_v99, ix2, ix3, ix4]; omega))

/-- Over the grid, coordinate 0 of the high corners of the query boxes is corner 2. -/
theorem pair_108_0 (b : Fin 64) (q : Fin 900) (t : Fin 300) :
    val_main_v108 (F := Ideal) x1 (ix4 b q t (0 : Fin 2)) = cornerQ x1 b q 2 := by
  have hb := b.isLt; have hq := q.isLt; have ht := t.isLt
  rw [val_main_v108_apply, val_main_v105_apply, val_main_v104_apply]
  exact congrArg _ (by
    funext a; refine Fin.ext ?_
    match a with
    | ⟨0, _⟩ => first | rfl | (simp only [idx_main_v108, idx_main_v105, idx_main_v104, ix2, ix3, ix4]; omega)
    | ⟨1, _⟩ => first | rfl | (simp only [idx_main_v108, idx_main_v105, idx_main_v104, ix2, ix3, ix4]; omega)
    | ⟨2, _⟩ => first | rfl | (simp only [idx_main_v108, idx_main_v105, idx_main_v104, ix2, ix3, ix4]; omega))

/-- Over the grid, coordinate 1 of the high corners of the query boxes is corner 3. -/
theorem pair_108_1 (b : Fin 64) (q : Fin 900) (t : Fin 300) :
    val_main_v108 (F := Ideal) x1 (ix4 b q t (1 : Fin 2)) = cornerQ x1 b q 3 := by
  have hb := b.isLt; have hq := q.isLt; have ht := t.isLt
  rw [val_main_v108_apply, val_main_v105_apply, val_main_v104_apply]
  exact congrArg _ (by
    funext a; refine Fin.ext ?_
    match a with
    | ⟨0, _⟩ => first | rfl | (simp only [idx_main_v108, idx_main_v105, idx_main_v104, ix2, ix3, ix4]; omega)
    | ⟨1, _⟩ => first | rfl | (simp only [idx_main_v108, idx_main_v105, idx_main_v104, ix2, ix3, ix4]; omega)
    | ⟨2, _⟩ => first | rfl | (simp only [idx_main_v108, idx_main_v105, idx_main_v104, ix2, ix3, ix4]; omega))

/-- Over the grid, coordinate 0 of the high corners of the target boxes is corner 2. -/
theorem pair_109_0 (b : Fin 64) (q : Fin 900) (t : Fin 300) :
    val_main_v109 (F := Ideal) x2 (ix4 b q t (0 : Fin 2)) = cornerT x2 b t 2 := by
  have hb := b.isLt; have hq := q.isLt; have ht := t.isLt
  rw [val_main_v109_apply, val_main_v107_apply, val_main_v106_apply]
  exact congrArg _ (by
    funext a; refine Fin.ext ?_
    match a with
    | ⟨0, _⟩ => first | rfl | (simp only [idx_main_v109, idx_main_v107, idx_main_v106, ix2, ix3, ix4]; omega)
    | ⟨1, _⟩ => first | rfl | (simp only [idx_main_v109, idx_main_v107, idx_main_v106, ix2, ix3, ix4]; omega)
    | ⟨2, _⟩ => first | rfl | (simp only [idx_main_v109, idx_main_v107, idx_main_v106, ix2, ix3, ix4]; omega))

/-- Over the grid, coordinate 1 of the high corners of the target boxes is corner 3. -/
theorem pair_109_1 (b : Fin 64) (q : Fin 900) (t : Fin 300) :
    val_main_v109 (F := Ideal) x2 (ix4 b q t (1 : Fin 2)) = cornerT x2 b t 3 := by
  have hb := b.isLt; have hq := q.isLt; have ht := t.isLt
  rw [val_main_v109_apply, val_main_v107_apply, val_main_v106_apply]
  exact congrArg _ (by
    funext a; refine Fin.ext ?_
    match a with
    | ⟨0, _⟩ => first | rfl | (simp only [idx_main_v109, idx_main_v107, idx_main_v106, ix2, ix3, ix4]; omega)
    | ⟨1, _⟩ => first | rfl | (simp only [idx_main_v109, idx_main_v107, idx_main_v106, ix2, ix3, ix4]; omega)
    | ⟨2, _⟩ => first | rfl | (simp only [idx_main_v109, idx_main_v107, idx_main_v106, ix2, ix3, ix4]; omega))

/-- Over the grid, coordinate 0 of the low corners of the query boxes is corner 0. -/
theorem pair_131_0 (b : Fin 64) (q : Fin 900) (t : Fin 300) :
    val_main_v131 (F := Ideal) x1 (ix4 b q t (0 : Fin 2)) = cornerQ x1 b q 0 := by
  have hb := b.isLt; have hq := q.isLt; have ht := t.isLt
  rw [val_main_v131_apply, val_main_v128_apply, val_main_v127_apply]
  exact congrArg _ (by
    funext a; refine Fin.ext ?_
    match a with
    | ⟨0, _⟩ => first | rfl | (simp only [idx_main_v131, idx_main_v128, idx_main_v127, ix2, ix3, ix4]; omega)
    | ⟨1, _⟩ => first | rfl | (simp only [idx_main_v131, idx_main_v128, idx_main_v127, ix2, ix3, ix4]; omega)
    | ⟨2, _⟩ => first | rfl | (simp only [idx_main_v131, idx_main_v128, idx_main_v127, ix2, ix3, ix4]; omega))

/-- Over the grid, coordinate 1 of the low corners of the query boxes is corner 1. -/
theorem pair_131_1 (b : Fin 64) (q : Fin 900) (t : Fin 300) :
    val_main_v131 (F := Ideal) x1 (ix4 b q t (1 : Fin 2)) = cornerQ x1 b q 1 := by
  have hb := b.isLt; have hq := q.isLt; have ht := t.isLt
  rw [val_main_v131_apply, val_main_v128_apply, val_main_v127_apply]
  exact congrArg _ (by
    funext a; refine Fin.ext ?_
    match a with
    | ⟨0, _⟩ => first | rfl | (simp only [idx_main_v131, idx_main_v128, idx_main_v127, ix2, ix3, ix4]; omega)
    | ⟨1, _⟩ => first | rfl | (simp only [idx_main_v131, idx_main_v128, idx_main_v127, ix2, ix3, ix4]; omega)
    | ⟨2, _⟩ => first | rfl | (simp only [idx_main_v131, idx_main_v128, idx_main_v127, ix2, ix3, ix4]; omega))

/-- Over the grid, coordinate 0 of the low corners of the target boxes is corner 0. -/
theorem pair_132_0 (b : Fin 64) (q : Fin 900) (t : Fin 300) :
    val_main_v132 (F := Ideal) x2 (ix4 b q t (0 : Fin 2)) = cornerT x2 b t 0 := by
  have hb := b.isLt; have hq := q.isLt; have ht := t.isLt
  rw [val_main_v132_apply, val_main_v130_apply, val_main_v129_apply]
  exact congrArg _ (by
    funext a; refine Fin.ext ?_
    match a with
    | ⟨0, _⟩ => first | rfl | (simp only [idx_main_v132, idx_main_v130, idx_main_v129, ix2, ix3, ix4]; omega)
    | ⟨1, _⟩ => first | rfl | (simp only [idx_main_v132, idx_main_v130, idx_main_v129, ix2, ix3, ix4]; omega)
    | ⟨2, _⟩ => first | rfl | (simp only [idx_main_v132, idx_main_v130, idx_main_v129, ix2, ix3, ix4]; omega))

/-- Over the grid, coordinate 1 of the low corners of the target boxes is corner 1. -/
theorem pair_132_1 (b : Fin 64) (q : Fin 900) (t : Fin 300) :
    val_main_v132 (F := Ideal) x2 (ix4 b q t (1 : Fin 2)) = cornerT x2 b t 1 := by
  have hb := b.isLt; have hq := q.isLt; have ht := t.isLt
  rw [val_main_v132_apply, val_main_v130_apply, val_main_v129_apply]
  exact congrArg _ (by
    funext a; refine Fin.ext ?_
    match a with
    | ⟨0, _⟩ => first | rfl | (simp only [idx_main_v132, idx_main_v130, idx_main_v129, ix2, ix3, ix4]; omega)
    | ⟨1, _⟩ => first | rfl | (simp only [idx_main_v132, idx_main_v130, idx_main_v129, ix2, ix3, ix4]; omega)
    | ⟨2, _⟩ => first | rfl | (simp only [idx_main_v132, idx_main_v130, idx_main_v129, ix2, ix3, ix4]; omega))

/-- Over the grid, coordinate 0 of the high corners of the query boxes is corner 2. -/
theorem pair_138_0 (b : Fin 64) (q : Fin 900) (t : Fin 300) :
    val_main_v138 (F := Ideal) x1 (ix4 b q t (0 : Fin 2)) = cornerQ x1 b q 2 := by
  have hb := b.isLt; have hq := q.isLt; have ht := t.isLt
  rw [val_main_v138_apply, val_main_v135_apply, val_main_v134_apply]
  exact congrArg _ (by
    funext a; refine Fin.ext ?_
    match a with
    | ⟨0, _⟩ => first | rfl | (simp only [idx_main_v138, idx_main_v135, idx_main_v134, ix2, ix3, ix4]; omega)
    | ⟨1, _⟩ => first | rfl | (simp only [idx_main_v138, idx_main_v135, idx_main_v134, ix2, ix3, ix4]; omega)
    | ⟨2, _⟩ => first | rfl | (simp only [idx_main_v138, idx_main_v135, idx_main_v134, ix2, ix3, ix4]; omega))

/-- Over the grid, coordinate 1 of the high corners of the query boxes is corner 3. -/
theorem pair_138_1 (b : Fin 64) (q : Fin 900) (t : Fin 300) :
    val_main_v138 (F := Ideal) x1 (ix4 b q t (1 : Fin 2)) = cornerQ x1 b q 3 := by
  have hb := b.isLt; have hq := q.isLt; have ht := t.isLt
  rw [val_main_v138_apply, val_main_v135_apply, val_main_v134_apply]
  exact congrArg _ (by
    funext a; refine Fin.ext ?_
    match a with
    | ⟨0, _⟩ => first | rfl | (simp only [idx_main_v138, idx_main_v135, idx_main_v134, ix2, ix3, ix4]; omega)
    | ⟨1, _⟩ => first | rfl | (simp only [idx_main_v138, idx_main_v135, idx_main_v134, ix2, ix3, ix4]; omega)
    | ⟨2, _⟩ => first | rfl | (simp only [idx_main_v138, idx_main_v135, idx_main_v134, ix2, ix3, ix4]; omega))

/-- Over the grid, coordinate 0 of the high corners of the target boxes is corner 2. -/
theorem pair_139_0 (b : Fin 64) (q : Fin 900) (t : Fin 300) :
    val_main_v139 (F := Ideal) x2 (ix4 b q t (0 : Fin 2)) = cornerT x2 b t 2 := by
  have hb := b.isLt; have hq := q.isLt; have ht := t.isLt
  rw [val_main_v139_apply, val_main_v137_apply, val_main_v136_apply]
  exact congrArg _ (by
    funext a; refine Fin.ext ?_
    match a with
    | ⟨0, _⟩ => first | rfl | (simp only [idx_main_v139, idx_main_v137, idx_main_v136, ix2, ix3, ix4]; omega)
    | ⟨1, _⟩ => first | rfl | (simp only [idx_main_v139, idx_main_v137, idx_main_v136, ix2, ix3, ix4]; omega)
    | ⟨2, _⟩ => first | rfl | (simp only [idx_main_v139, idx_main_v137, idx_main_v136, ix2, ix3, ix4]; omega))

/-- Over the grid, coordinate 1 of the high corners of the target boxes is corner 3. -/
theorem pair_139_1 (b : Fin 64) (q : Fin 900) (t : Fin 300) :
    val_main_v139 (F := Ideal) x2 (ix4 b q t (1 : Fin 2)) = cornerT x2 b t 3 := by
  have hb := b.isLt; have hq := q.isLt; have ht := t.isLt
  rw [val_main_v139_apply, val_main_v137_apply, val_main_v136_apply]
  exact congrArg _ (by
    funext a; refine Fin.ext ?_
    match a with
    | ⟨0, _⟩ => first | rfl | (simp only [idx_main_v139, idx_main_v137, idx_main_v136, ix2, ix3, ix4]; omega)
    | ⟨1, _⟩ => first | rfl | (simp only [idx_main_v139, idx_main_v137, idx_main_v136, ix2, ix3, ix4]; omega)
    | ⟨2, _⟩ => first | rfl | (simp only [idx_main_v139, idx_main_v137, idx_main_v136, ix2, ix3, ix4]; omega))

/-! ## The intersection -/

/-- The clipped width of the intersection: the smaller right edge minus the larger left edge. -/
theorem inter_w (b : Fin 64) (q : Fin 900) (t : Fin 300) :
    val_main_v112 (F := Ideal) x1 x2 (ix4 b q t (0 : Fin 2))
      = max 0 (min (cornerQ x1 b q 2) (cornerT x2 b t 2) - max (cornerQ x1 b q 0) (cornerT x2 b t 0)) := by
  rw [val_main_v112_apply, val_main_v111_apply, val_main_v110_apply, val_main_v103_apply, val_main_call5_v1_apply, val_main_call5_v0_apply, val_main_c_14_apply, pair_108_0, pair_109_0, pair_101_0, pair_102_0, clip_zero]
  rfl

/-- The clipped height of the intersection. -/
theorem inter_h (b : Fin 64) (q : Fin 900) (t : Fin 300) :
    val_main_v112 (F := Ideal) x1 x2 (ix4 b q t (1 : Fin 2))
      = max 0 (min (cornerQ x1 b q 3) (cornerT x2 b t 3) - max (cornerQ x1 b q 1) (cornerT x2 b t 1)) := by
  rw [val_main_v112_apply, val_main_v111_apply, val_main_v110_apply, val_main_v103_apply, val_main_call5_v1_apply, val_main_call5_v0_apply, val_main_c_14_apply, pair_108_1, pair_109_1, pair_101_1, pair_102_1, clip_zero]
  rfl

/-- The width is coordinate 0 of the pair of extents. -/
theorem inter_pick_w (b : Fin 64) (q : Fin 900) (t : Fin 300) :
    val_main_v114 (F := Ideal) x1 x2 (ix3 b q t) = val_main_v112 (F := Ideal) x1 x2 (ix4 b q t (0 : Fin 2)) := by
  have hb := b.isLt; have hq := q.isLt; have ht := t.isLt
  rw [val_main_v114_apply, val_main_v113_apply]
  exact congrArg _ (by
    funext a; refine Fin.ext ?_
    match a with
    | ⟨0, _⟩ => first | rfl | (simp only [idx_main_v114, idx_main_v113, ix2, ix3, ix4]; omega)
    | ⟨1, _⟩ => first | rfl | (simp only [idx_main_v114, idx_main_v113, ix2, ix3, ix4]; omega)
    | ⟨2, _⟩ => first | rfl | (simp only [idx_main_v114, idx_main_v113, ix2, ix3, ix4]; omega)
    | ⟨3, _⟩ => first | rfl | (simp only [idx_main_v114, idx_main_v113, ix2, ix3, ix4]; omega))

/-- The height is coordinate 1. -/
theorem inter_pick_h (b : Fin 64) (q : Fin 900) (t : Fin 300) :
    val_main_v116 (F := Ideal) x1 x2 (ix3 b q t) = val_main_v112 (F := Ideal) x1 x2 (ix4 b q t (1 : Fin 2)) := by
  have hb := b.isLt; have hq := q.isLt; have ht := t.isLt
  rw [val_main_v116_apply, val_main_v115_apply]
  exact congrArg _ (by
    funext a; refine Fin.ext ?_
    match a with
    | ⟨0, _⟩ => first | rfl | (simp only [idx_main_v116, idx_main_v115, ix2, ix3, ix4]; omega)
    | ⟨1, _⟩ => first | rfl | (simp only [idx_main_v116, idx_main_v115, ix2, ix3, ix4]; omega)
    | ⟨2, _⟩ => first | rfl | (simp only [idx_main_v116, idx_main_v115, ix2, ix3, ix4]; omega)
    | ⟨3, _⟩ => first | rfl | (simp only [idx_main_v116, idx_main_v115, ix2, ix3, ix4]; omega))

/-- The area of the intersection of query `q`'s and target `t`'s boxes. -/
theorem inter_area (b : Fin 64) (q : Fin 900) (t : Fin 300) :
    val_main_v117 (F := Ideal) x1 x2 (ix3 b q t)
      = max 0 (min (cornerQ x1 b q 2) (cornerT x2 b t 2) - max (cornerQ x1 b q 0) (cornerT x2 b t 0))
        * max 0 (min (cornerQ x1 b q 3) (cornerT x2 b t 3) - max (cornerQ x1 b q 1) (cornerT x2 b t 1)) := by
  rw [val_main_v117_apply, inter_pick_w, inter_pick_h, inter_w, inter_h]
  rfl

/-! ## The union -/

/-- The query area laid over the grid. -/
theorem grid_q_area (b : Fin 64) (q : Fin 900) (t : Fin 300) :
    val_main_v120 (F := Ideal) x1 (ix3 b q t) = val_main_v83 (F := Ideal) x1 (ix2 b q) := by
  have hb := b.isLt; have hq := q.isLt; have ht := t.isLt
  rw [val_main_v120_apply, val_main_v118_apply]
  exact congrArg _ (by
    funext a; refine Fin.ext ?_
    match a with
    | ⟨0, _⟩ => first | rfl | (simp only [idx_main_v120, idx_main_v118, ix2, ix3, ix4]; omega)
    | ⟨1, _⟩ => first | rfl | (simp only [idx_main_v120, idx_main_v118, ix2, ix3, ix4]; omega))

/-- The target area laid over the grid. -/
theorem grid_t_area (b : Fin 64) (q : Fin 900) (t : Fin 300) :
    val_main_v121 (F := Ideal) x2 (ix3 b q t) = val_main_v96 (F := Ideal) x2 (ix2 b t) := by
  have hb := b.isLt; have hq := q.isLt; have ht := t.isLt
  rw [val_main_v121_apply, val_main_v119_apply]
  exact congrArg _ (by
    funext a; refine Fin.ext ?_
    match a with
    | ⟨0, _⟩ => first | rfl | (simp only [idx_main_v121, idx_main_v119, ix2, ix3, ix4]; omega)
    | ⟨1, _⟩ => first | rfl | (simp only [idx_main_v121, idx_main_v119, ix2, ix3, ix4]; omega))

/-- The area of the union: the two areas minus the intersection. -/
theorem union_area (b : Fin 64) (q : Fin 900) (t : Fin 300) :
    val_main_v123 (F := Ideal) x1 x2 (ix3 b q t)
      = val_main_v83 (F := Ideal) x1 (ix2 b q) + val_main_v96 (F := Ideal) x2 (ix2 b t)
        - val_main_v117 (F := Ideal) x1 x2 (ix3 b q t) := by
  rw [val_main_v123_apply, val_main_v122_apply, grid_q_area, grid_t_area]
  rfl

/-! ## The enclosing box -/

/-- The clipped width of the smallest enclosing box: the larger right edge minus the smaller left edge. -/
theorem hull_w (b : Fin 64) (q : Fin 900) (t : Fin 300) :
    val_main_v142 (F := Ideal) x1 x2 (ix4 b q t (0 : Fin 2))
      = max 0 (max (cornerQ x1 b q 2) (cornerT x2 b t 2) - min (cornerQ x1 b q 0) (cornerT x2 b t 0)) := by
  rw [val_main_v142_apply, val_main_v141_apply, val_main_v140_apply, val_main_v133_apply, val_main_call6_v1_apply, val_main_call6_v0_apply, val_main_c_16_apply, pair_138_0, pair_139_0, pair_131_0, pair_132_0, clip_zero]
  rfl

/-- The clipped height of the enclosing box. -/
theorem hull_h (b : Fin 64) (q : Fin 900) (t : Fin 300) :
    val_main_v142 (F := Ideal) x1 x2 (ix4 b q t (1 : Fin 2))
      = max 0 (max (cornerQ x1 b q 3) (cornerT x2 b t 3) - min (cornerQ x1 b q 1) (cornerT x2 b t 1)) := by
  rw [val_main_v142_apply, val_main_v141_apply, val_main_v140_apply, val_main_v133_apply, val_main_call6_v1_apply, val_main_call6_v0_apply, val_main_c_16_apply, pair_138_1, pair_139_1, pair_131_1, pair_132_1, clip_zero]
  rfl

/-- The width is coordinate 0 of the pair of extents. -/
theorem hull_pick_w (b : Fin 64) (q : Fin 900) (t : Fin 300) :
    val_main_v144 (F := Ideal) x1 x2 (ix3 b q t) = val_main_v142 (F := Ideal) x1 x2 (ix4 b q t (0 : Fin 2)) := by
  have hb := b.isLt; have hq := q.isLt; have ht := t.isLt
  rw [val_main_v144_apply, val_main_v143_apply]
  exact congrArg _ (by
    funext a; refine Fin.ext ?_
    match a with
    | ⟨0, _⟩ => first | rfl | (simp only [idx_main_v144, idx_main_v143, ix2, ix3, ix4]; omega)
    | ⟨1, _⟩ => first | rfl | (simp only [idx_main_v144, idx_main_v143, ix2, ix3, ix4]; omega)
    | ⟨2, _⟩ => first | rfl | (simp only [idx_main_v144, idx_main_v143, ix2, ix3, ix4]; omega)
    | ⟨3, _⟩ => first | rfl | (simp only [idx_main_v144, idx_main_v143, ix2, ix3, ix4]; omega))

/-- The height is coordinate 1. -/
theorem hull_pick_h (b : Fin 64) (q : Fin 900) (t : Fin 300) :
    val_main_v146 (F := Ideal) x1 x2 (ix3 b q t) = val_main_v142 (F := Ideal) x1 x2 (ix4 b q t (1 : Fin 2)) := by
  have hb := b.isLt; have hq := q.isLt; have ht := t.isLt
  rw [val_main_v146_apply, val_main_v145_apply]
  exact congrArg _ (by
    funext a; refine Fin.ext ?_
    match a with
    | ⟨0, _⟩ => first | rfl | (simp only [idx_main_v146, idx_main_v145, ix2, ix3, ix4]; omega)
    | ⟨1, _⟩ => first | rfl | (simp only [idx_main_v146, idx_main_v145, ix2, ix3, ix4]; omega)
    | ⟨2, _⟩ => first | rfl | (simp only [idx_main_v146, idx_main_v145, ix2, ix3, ix4]; omega)
    | ⟨3, _⟩ => first | rfl | (simp only [idx_main_v146, idx_main_v145, ix2, ix3, ix4]; omega))

/-- The area of the smallest box enclosing both. -/
theorem hull_area (b : Fin 64) (q : Fin 900) (t : Fin 300) :
    val_main_v147 (F := Ideal) x1 x2 (ix3 b q t)
      = max 0 (max (cornerQ x1 b q 2) (cornerT x2 b t 2) - min (cornerQ x1 b q 0) (cornerT x2 b t 0))
        * max 0 (max (cornerQ x1 b q 3) (cornerT x2 b t 3) - min (cornerQ x1 b q 1) (cornerT x2 b t 1)) := by
  rw [val_main_v147_apply, hull_pick_w, hull_pick_h, hull_w, hull_h]
  rfl

/-! ## The generalised IoU -/

/-- THE TERM: minus the generalised IoU of the two boxes, over the corners the reference stacked. The clip's `max 0 v`
    is the formula's `max v 0`. -/
theorem ref_giou_corners (b : Fin 64) (q : Fin 900) (t : Fin 300) :
    val_main_v153 (F := Ideal) x1 x2 (ix3 b q t)
      = -(giouC (cornerQ x1 b q 0) (cornerQ x1 b q 1) (cornerQ x1 b q 2) (cornerQ x1 b q 3)
            (cornerT x2 b t 0) (cornerT x2 b t 1) (cornerT x2 b t 2) (cornerT x2 b t 3)) := by
  rw [val_main_v153_apply, val_main_v152_apply, val_main_v126_apply, val_main_v151_apply, val_main_v125_apply, val_main_v150_apply, val_main_v148_apply, val_main_v124_apply, val_main_v149_apply, val_main_cst_15_apply, val_main_cst_17_apply, hull_area, union_area, inter_area, q_area, t_area]
  unfold giouC side eps
  simp only [max_comm (0 : EReal)]
  rfl

end Cert.Matcher

end
-- ==== Proof.RefValue.lean ====
/-
  The reference's result is the cost tensor of the specification.

  At entry (b, q, t) the reference adds the three weighted terms. Each was read separately: the class term is minus the
  softmax probability of the target's class (labels in the class range), the L1 term the sum of the four coordinate
  distances, the last term minus the generalised IoU over the corners the reference stacked; and those corners are the
  centre minus and plus half the extent, which turns the corner formula into the specification's.
-/
import proofs.«430452_j34591666602013_1_alg».proof.Proof.RefRead
import proofs.«430452_j34591666602013_1_alg».proof.Proof.RefClass
import proofs.«430452_j34591666602013_1_alg».proof.Proof.RefBoxes
import proofs.«430452_j34591666602013_1_alg».proof.Proof.RefGiou
import proofs.«430452_j34591666602013_1_alg».proof.Proof.Spec

noncomputable section

namespace Cert.Matcher

open Cert.ReferenceIdeal Cert.ReferenceIdeal.Gen Cert.ReferenceIdeal.ReadP Idealize.ShloMosaic Idealize.ShloMosaic.ValueIdx

/-- THE REFERENCE'S RESULT, as one function of the argument arrays: the specification's cost tensor, for labels in the
    class range. -/
theorem ref_result (x0 : FVec Ideal S64x900x91 .f32) (x1 : FVec Ideal S64x900x4 .f32) (x2 : FVec Ideal S64x300x4 .f32)
    (x3 : IVec S64x300 32) (hin : InRange x3) :
    val_main_v161 (F := Ideal) x0 x1 x2 x3 = cost x0 x1 x2 x3 := by
  funext i
  obtain ⟨b, q, t, rfl⟩ : ∃ (b : Fin 64) (q : Fin 900) (t : Fin 300), i = ix3 b q t := ⟨i 0, i 1, i 2, eq_ix3 i⟩
  obtain ⟨c0, c1, c2, c3⟩ := ref_corners_q x1 b q
  obtain ⟨d0, d1, d2, d3⟩ := ref_corners_t x2 b t
  rw [val_main_v161_apply, val_main_v158_apply, val_main_v160_apply, val_main_v155_apply, val_main_v157_apply,
    val_main_v154_apply, val_main_v156_apply, val_main_v159_apply, val_main_cst_18_apply, val_main_cst_19_apply,
    val_main_cst_20_apply, ref_class x0 x3 hin, ref_l1, ref_giou_corners]
  dsimp only [cornerQ, cornerT]
  rw [c0, c1, c2, c3, d0, d1, d2, d3, ← giouOf_eq_giouC]
  rfl

end Cert.Matcher

end
-- ==== Proof.lean ====
/-
  The certificate of a matching-cost kernel against its jnp reference, over the extended reals.

  For each batch the kernel computes, per (query, target) pair, 1 · (−p) + 5 · L1 + 2 · (−GIoU): p the softmax
  probability the query gives the target's class, L1 the distance of the two boxes over their four coordinates, GIoU
  their generalised intersection over union. The kernel picks p out by multiplying the softmax row with a one-hot
  matrix of the labels; the reference gathers it along the class axis. The two agree exactly when every label is a
  class index, 0 ≤ label < 91 (outside that range the reference wraps a negative label around or answers its
  out-of-range filler, while the one-hot column is empty): that range is the certificate's precondition beside the
  finiteness of the float inputs. The box terms are the same formulas on both sides, the reference keeping corners in a
  stacked array where the kernel keeps them in separate vectors.

  Both results are shown to be one function of the argument arrays, `Cert.Matcher.cost` (Proof/Spec.lean): the kernel's
  from its run block by block (Proof/KernelFinal.lean), the reference's from its run stage by stage (Proof/RefValue.lean).
  The frames of the two kernel programs are the generated ones; the reference's is its run with the result dropped.
-/
import proofs.«430452_j34591666602013_1_alg».proof.Defs
import proofs.«430452_j34591666602013_1_alg».proof.Proof.Gen.Kernel
import proofs.«430452_j34591666602013_1_alg».proof.Proof.Gen.Kernel.Skeleton
import proofs.«430452_j34591666602013_1_alg».proof.Proof.Gen.Kernel.Launch
import proofs.«430452_j34591666602013_1_alg».proof.Proof.Gen.Kernel.Points
import proofs.«430452_j34591666602013_1_alg».proof.Proof.Gen.Kernel.Frame
import proofs.«430452_j34591666602013_1_alg».proof.Proof.Gen.KernelIdeal
import proofs.«430452_j34591666602013_1_alg».proof.Proof.Gen.KernelIdeal.Skeleton
import proofs.«430452_j34591666602013_1_alg».proof.Proof.Gen.KernelIdeal.Launch
import proofs.«430452_j34591666602013_1_alg».proof.Proof.Gen.KernelIdeal.Points
import proofs.«430452_j34591666602013_1_alg».proof.Proof.Gen.KernelIdeal.Frame
import proofs.«430452_j34591666602013_1_alg».proof.Proof.Gen.ReferenceIdeal
import proofs.«430452_j34591666602013_1_alg».proof.Proof.Gen.Pre_finite_inputs
import proofs.«430452_j34591666602013_1_alg».proof.Proof.KernelValue
import proofs.«430452_j34591666602013_1_alg».proof.Proof.RefRun
import proofs.«430452_j34591666602013_1_alg».proof.Proof.RefRead
import proofs.«430452_j34591666602013_1_alg».proof.Proof.PreDecode
import proofs.«430452_j34591666602013_1_alg».proof.Proof.KernelFinal
import proofs.«430452_j34591666602013_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- From memories that agree on the arguments, with finite floats and labels in the class range, both programs end with
    the specification's cost tensor of those arguments. -/
theorem algebraic : Cert.algebraic_KernelIdeal_ReferenceIdeal := by
  intro m ρ m' ρ' hpre hagree
  have hin : ∀ c : Dev Cert.KernelIdeal.nD,
      Cert.Matcher.InRange (m ((c : Thread Cert.KernelIdeal.nD Cert.KernelIdeal.τ).loc Cert.KernelIdeal.main_arg3)) :=
    fun c => Cert.Matcher.inRange_of_pre _ _ _ _ (hpre c)
  refine ⟨_, Cert.Matcher.KFinal.run m ρ hin, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v161_eq, (hagree c).1, (hagree c).2.1, (hagree c).2.2.1, (hagree c).2.2.2]
  exact Cert.Matcher.ref_result _ _ _ _ (hin c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
